-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v43 : IVec S_ 1) (main_v47 : IVec S1600000 1) (main_v51 : IVec S1600000 1) : IVec S_ 1 :=
  let main_v52 : IVec S1600000 1 := andi main_v47 main_v51
  let main_c_18 : IVec S_ 1 := constantI S_ 1 1#1
  let main_v53 : IVec S_ 1 := (fun x v => Host.reduce IntOp.andi x v reducesTo_S1600000_S_d0 h_S_) main_v52 main_c_18
  let main_v54 : IVec S_ 1 := andi main_v43 main_v53
  main_v54

def fn_part2 {F : FTy → Type} [FloatOps F] (main_arg1 : IVec S2x1600000 32) (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_v45 : IVec S1600000 32 := shapeCast S1600000 main_v44 shapeCasts_S1x1600000_S1600000
  let main_c_16 : IVec S_ 32 := constantI S_ 32 0#32
  let main_v46 : IVec S1600000 32 := broadcastInDim S1600000 ![] bcast_S_S1600000 main_c_16
  let main_v47 : IVec S1600000 1 := cmpi .sge main_v45 main_v46
  let main_v48 : IVec S1x1600000 32 := (extractStridedSlice S1x1600000 ![0, 0] · slices_S2x1600000_S1x1600000_0_0) main_arg1
  let main_v49 : IVec S1600000 32 := shapeCast S1600000 main_v48 shapeCasts_S1x1600000_S1600000
  let main_c_17 : IVec S_ 32 := constantI S_ 32 100000#32
  let main_v50 : IVec S1600000 32 := broadcastInDim S1600000 ![] bcast_S_S1600000 main_c_17
  let main_v51 : IVec S1600000 1 := cmpi .slt main_v49 main_v50
  fn_part3 (F := F) main_v43 main_v47 main_v51

def fn_part1 {F : FTy → Type} [FloatOps F] (main_arg1 : IVec S2x1600000 32) (main_arg5 : FVec F S128 .f32) (main_arg6 : FVec F S128x64 .f32) (main_arg7 : FVec F S64 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1 : Shape := ⟨1, ![1]⟩
abbrev S1x1 : Shape := ⟨2, ![1, 1]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 175
  | .vmem => 40
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128x64, .f32⟩
  | 9 => ⟨S64, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1, .i32⟩
  | 53 => ⟨S_, .i32⟩
  | 54 => ⟨S1700000x1, .i32⟩
  | 55 => ⟨S1700000x1, .i1⟩
  | 56 => ⟨S1x1, .i32⟩
  | 57 => ⟨S1700000x1, .i32⟩
  | 58 => ⟨S1700000x1, .i1⟩
  | 59 => ⟨S1700000x1, .i1⟩
  | 60 => ⟨S_, .i1⟩
  | 61 => ⟨S1700000, .i1⟩
  | 62 => ⟨S1700000x128, .f32⟩
  | 63 => ⟨S1700000x128, .i1⟩
  | 64 => ⟨S_, .f32⟩
  | 65 => ⟨S1700000x128, .f32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1, .i32⟩
  | 86 => ⟨S_, .i32⟩
  | 87 => ⟨S1700000x1, .i32⟩
  | 88 => ⟨S1700000x1, .i1⟩
  | 89 => ⟨S1x1, .i32⟩
  | 90 => ⟨S1700000x1, .i32⟩
  | 91 => ⟨S1700000x1, .i1⟩
  | 92 => ⟨S1700000x1, .i1⟩
  | 93 => ⟨S_, .i1⟩
  | 94 => ⟨S1700000, .i1⟩
  | 95 => ⟨S1700000x128, .f32⟩
  | 96 => ⟨S1700000x128, .i1⟩
  | 97 => ⟨S_, .f32⟩
  | 98 => ⟨S1700000x128, .f32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1, .i32⟩
  | 119 => ⟨S_, .i32⟩
  | 120 => ⟨S1700000x1, .i32⟩
  | 121 => ⟨S1700000x1, .i1⟩
  | 122 => ⟨S1x1, .i32⟩
  | 123 => ⟨S1700000x1, .i32⟩
  | 124 => ⟨S1700000x1, .i1⟩
  | 125 => ⟨S1700000x1, .i1⟩
  | 126 => ⟨S_, .i1⟩
  | 127 => ⟨S1700000, .i1⟩
  | _ => ⟨S100000x128, .f32⟩

abbrev hbmTy0_1 (i : Nat) : BufTy := match i % 128 with
  | 0 => ⟨S1700000x64, .f32⟩
  | 1 => ⟨S1700000x64, .i1⟩
  | 2 => ⟨S_, .f32⟩
  | 3 => ⟨S1700000x64, .f32⟩
  | 4 => ⟨S1700000x64, .f32⟩
  | 5 => ⟨S1700000x1, .f32⟩
  | 6 => ⟨S1700000x64, .f32⟩
  | 7 => ⟨S1700000x64, .f32⟩
  | 8 => ⟨S_, .f32⟩
  | 9 => ⟨S100000x64, .f32⟩
  | 10 => ⟨S1700000x1, .i32⟩
  | 11 => ⟨S100000x64, .f32⟩
  | 12 => ⟨S1x64, .f32⟩
  | 13 => ⟨S100000x64, .f32⟩
  | 14 => ⟨S100000x64, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1, .i32⟩
  | 24 => ⟨S_, .i32⟩
  | 25 => ⟨S1700000x1, .i32⟩
  | 26 => ⟨S1700000x1, .i1⟩
  | 27 => ⟨S1x1, .i32⟩
  | 28 => ⟨S1700000x1, .i32⟩
  | 29 => ⟨S1700000x1, .i1⟩
  | 30 => ⟨S1700000x1, .i1⟩
  | 31 => ⟨S_, .i1⟩
  | 32 => ⟨S1700000, .i1⟩
  | 33 => ⟨S1700000x64, .f32⟩
  | 34 => ⟨S1700000x64, .i1⟩
  | 35 => ⟨S_, .f32⟩
  | 36 => ⟨S1700000x64, .f32⟩
  | 37 => ⟨S1700000x64, .f32⟩
  | 38 => ⟨S1700000x1, .f32⟩
  | 39 => ⟨S1700000x64, .f32⟩
  | 40 => ⟨S1700000x64, .f32⟩
  | 41 => ⟨S_, .f32⟩
  | 42 => ⟨S100000x64, .f32⟩
  | 43 => ⟨S1700000x1, .i32⟩
  | 44 => ⟨S100000x64, .f32⟩
  | 45 => ⟨S1x64, .f32⟩
  | 46 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x128, .f32⟩
  | .local _ .vmem, ⟨31, _⟩ => ⟨S10000x128, .f32⟩
  | .local _ .vmem, ⟨32, _⟩ => ⟨S128x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_4 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_call1_cst : Ref sig .tc := ⟨.hbm, 97, rfl⟩
abbrev main_call1_v15 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_cst_5 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_call2_cst : Ref sig .tc := ⟨.hbm, 130, rfl⟩
abbrev main_call2_v15 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_cst_6 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_call3_c : Ref sig .tc := ⟨.hbm, 143, rfl⟩
abbrev main_call3_v0 : Ref sig .tc := ⟨.hbm, 144, rfl⟩
abbrev main_call3_v1 : Ref sig .tc := ⟨.hbm, 145, rfl⟩
abbrev main_call3_c_0 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_c_1 : Ref sig .tc := ⟨.hbm, 151, rfl⟩
abbrev main_call3_c_2 : Ref sig .tc := ⟨.hbm, 152, rfl⟩
abbrev main_call3_v6 : Ref sig .tc := ⟨.hbm, 153, rfl⟩
abbrev main_call3_v7 : Ref sig .tc := ⟨.hbm, 154, rfl⟩
abbrev main_call3_v8 : Ref sig .tc := ⟨.hbm, 155, rfl⟩
abbrev main_call3_v9 : Ref sig .tc := ⟨.hbm, 156, rfl⟩
abbrev main_call3_v10 : Ref sig .tc := ⟨.hbm, 157, rfl⟩
abbrev main_call3_v11 : Ref sig .tc := ⟨.hbm, 158, rfl⟩
abbrev main_call3_c_3 : Ref sig .tc := ⟨.hbm, 159, rfl⟩
abbrev main_call3_v12 : Ref sig .tc := ⟨.hbm, 160, rfl⟩
abbrev main_call3_v13 : Ref sig .tc := ⟨.hbm, 161, rfl⟩
abbrev main_call3_v14 : Ref sig .tc := ⟨.hbm, 162, rfl⟩
abbrev main_call3_cst : Ref sig .tc := ⟨.hbm, 163, rfl⟩
abbrev main_call3_v15 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_cst_7 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v46) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v54) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v46) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v57) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v64) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v65) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v66) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128x64, .f32⟩
  | 9 => ⟨S64, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S1700000x1, .f32⟩
  | 54 => ⟨S1700000x128, .f32⟩
  | 55 => ⟨S1700000x128, .f32⟩
  | 56 => ⟨S_, .f32⟩
  | 57 => ⟨S100000x128, .f32⟩
  | 58 => ⟨S1700000x1, .i32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x128, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x128, .f32⟩
  | 76 => ⟨S1700000x1, .f32⟩
  | 77 => ⟨S1700000x128, .f32⟩
  | 78 => ⟨S1700000x128, .f32⟩
  | 79 => ⟨S_, .f32⟩
  | 80 => ⟨S100000x128, .f32⟩
  | 81 => ⟨S1700000x1, .i32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x64, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x64, .f32⟩
  | 99 => ⟨S1700000x1, .f32⟩
  | 100 => ⟨S1700000x64, .f32⟩
  | 101 => ⟨S1700000x64, .f32⟩
  | 102 => ⟨S_, .f32⟩
  | 103 => ⟨S100000x64, .f32⟩
  | 104 => ⟨S1700000x1, .i32⟩
  | 105 => ⟨S100000x64, .f32⟩
  | 106 => ⟨S1x64, .f32⟩
  | 107 => ⟨S100000x64, .f32⟩
  | 108 => ⟨S100000x64, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_13 : Ref sig .tc := ⟨.hbm, 110, rfl⟩
abbrev main_v81 : Ref sig .tc := ⟨.hbm, 111, rfl⟩
abbrev main_v82 : Ref sig .tc := ⟨.hbm, 112, rfl⟩
abbrev main_c_14 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_15 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.TakeFill.lean ====
/-
  Taking rows by node id: the guarded take is the plain gather when every id is in range.

  The kernel program takes the rows of a feature matrix at the source node ids with an out-of-range guard: an id is
  first wrapped (a negative id has 100000 added), then every row whose wrapped id lies outside [0, 99999] is replaced by a
  fill value. When every id already lies in [0, 100000) the wrap does nothing, the guard holds on every row, and the
  guarded take is the plain gather at the wrapped ids. The source ids are the first row of the edge list followed by the
  node numbers 0 … 99999 (the self-loops); the second part is in range by construction and the first by the claim's
  precondition.

  A bias vector reshaped to a 1×d row is the same row as the vector broadcast along axis 1.
-/
import proofs.«409801_j72988674228409_1_alg».proof.KernelIdeal
import proofs.«409801_j72988674228409_1_alg».proof.Pre_finite_inputs
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

namespace Cert.KernelIdeal.Take

open Cert.KernelIdeal Idealize.ShloMosaic Idealize.ShloMosaic.ValueIdx

variable [Cert.KernelIdeal.Facts]
open Cert.KernelIdeal.Facts₀ Cert.KernelIdeal.Facts

/-- The source node ids: the first row of the edge list, then the node numbers 0 … 99999. -/
def srcIds (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩,
    ⟨S100000, iotaInDim S100000 32 0⟩] concatenates_S1600000_S100000_S1700000_d0

/-- The ids after the wrap of negative ones, as a column of start indices. -/
def wrapCol (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The guard: the wrapped id lies in [0, 99999], per id. -/
def inRange (s : IVec S1700000 32) : IVec S1700000 1 :=
  Host.reduce IntOp.andi
    (andi (cmpi .sge (wrapCol s) (broadcastInDim S1700000x1 ![] bcast_S_S1700000x1 (constantI S_ 32 0#32)))
      (cmpi .sle (wrapCol s) (broadcastInDim S1700000x1 ![0, 1] bcast_S1x1_S1700000x1_0_1 (broadcastInDim S1x1 ![1] bcast_S1_S1x1_1 (constantI S1 32 99999#32)))))
    (constantI S_ 1 1#1) reducesTo_S1700000x1_S1700000_d1 h_S_

/-- A fold by `and` from 1 over words that are all 1 is 1. -/
private theorem foldl_andi_one {ι : Type} (f : ι → BitVec 1) (hf : ∀ n, f n = 1#1) :
    ∀ (l : List ι), l.foldl (fun r n => IntOp.andi r (f n)) 1#1 = 1#1
  | [] => rfl
  | a :: l => by
    have h1 : IntOp.andi (1#1) (f a) = 1#1 := by rw [hf a]; rfl
    rw [List.foldl_cons, h1]; exact foldl_andi_one f hf l

/-- A vector laid along axis 0 of an [n × m] rectangle reads, at (p, q), the vector at p. -/
private theorem bcast_axis0_apply {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- For a word whose signed value lies in [0, 100000) the wrap leaves it alone and both guard comparisons hold. -/
private theorem word_guard (w : BitVec 32) (h0 : 0 ≤ w.toInt) (h1 : w.toInt < 100000) :
    IntOp.andi (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have hz : (0#32).toInt = 0 := by decide
  have hm : (99999#32).toInt = 99999 := by decide
  have hslt : IntOp.cmpi .slt w 0#32 = 0#1 := by
    show BitVec.ofBool (w.slt 0#32) = 0#1
    have : w.slt 0#32 = false := by
      simp only [BitVec.slt, hz, decide_eq_false_iff_not]; omega
    rw [this]; rfl
  have hsge : IntOp.cmpi .sge w 0#32 = 1#1 := by
    show BitVec.ofBool ((0#32).sle w) = 1#1
    have : (0#32).sle w = true := by
      simp only [BitVec.sle, hz, decide_eq_true_eq]; omega
    rw [this]; rfl
  have hsle : IntOp.cmpi .sle w 99999#32 = 1#1 := by
    show BitVec.ofBool (w.sle 99999#32) = 1#1
    have : w.sle 99999#32 = true := by
      simp only [BitVec.sle, hm, decide_eq_true_eq]; omega
    rw [this]; rfl
  rw [hslt, select_zero, hsge, hsle]; rfl

/-- The guard's mask at a row of the id column. -/
private theorem mask_apply (s : IVec S1700000 32) (p : Fin 1700000) (q : Fin 1) :
    andi (cmpi .sge (wrapCol s) (broadcastInDim S1700000x1 ![] bcast_S_S1700000x1 (constantI S_ 32 0#32)))
      (cmpi .sle (wrapCol s) (broadcastInDim S1700000x1 ![0, 1] bcast_S1x1_S1700000x1_0_1 (broadcastInDim S1x1 ![1] bcast_S1_S1x1_1 (constantI S1 32 99999#32)))) (ix2 p q)
    = IntOp.andi (IntOp.cmpi .sge (Scalar.select (IntOp.cmpi .slt (s (ix1 p)) 0#32) (IntOp.addi (s (ix1 p)) 100000#32) (s (ix1 p))) 0#32)
      (IntOp.cmpi .sle (Scalar.select (IntOp.cmpi .slt (s (ix1 p)) 0#32) (IntOp.addi (s (ix1 p)) 100000#32) (s (ix1 p))) 99999#32) := by
  have hw : wrapCol s (ix2 p q) = Scalar.select (IntOp.cmpi .slt (s (ix1 p)) 0#32) (IntOp.addi (s (ix1 p)) 100000#32) (s (ix1 p)) := by
    unfold wrapCol
    rw [bcast_axis0_apply]
    rfl
  show IntOp.andi (IntOp.cmpi .sge (wrapCol s (ix2 p q)) 0#32) (IntOp.cmpi .sle (wrapCol s (ix2 p q)) 99999#32) = _
  rw [hw]

/-- Where every id lies in [0, 100000) the guard holds on every row. -/
theorem inRange_one (s : IVec S1700000 32) (hs : ∀ i, 0 ≤ (s i).toInt ∧ (s i).toInt < 100000) :
    inRange s = fun _ => 1#1 := by
  funext j
  unfold inRange
  rw [Host.reduce_eq_foldl]
  refine foldl_andi_one _ (fun i => ?_) _
  obtain ⟨p, q, rfl⟩ : ∃ (p : Fin 1700000) (q : Fin 1), i = ix2 p q := ⟨i 0, i 1, eq_ix2 i⟩
  rw [mask_apply]
  exact word_guard _ (hs (ix1 p)).1 (hs (ix1 p)).2

/-- The guarded take of 128-wide rows is the plain gather where every id is in range. -/
theorem take128 (h : FVec Ideal S100000x128 .f32) (s : IVec S1700000 32) (hs : ∀ i, 0 ≤ (s i).toInt ∧ (s i).toInt < 100000) :
    select (broadcastInDim S1700000x128 ![0] bcast_S1700000_S1700000x128_0 (inRange s))
        (Host.gather gather_S100000x128_S1700000x1_S1700000x128_1_0_n_n_0_1_1128 h (wrapCol s))
        (broadcastInDim S1700000x128 ![] bcast_S_S1700000x128 (constant (F := Ideal) S_ .f32 0x7FC00000#32))
      = Host.gather gather_S100000x128_S1700000x1_S1700000x128_1_0_n_n_0_1_1128 h (wrapCol s) := by
  rw [inRange_one s hs]
  funext j
  obtain ⟨p, q, rfl⟩ : ∃ (p : Fin 1700000) (q : Fin 128), j = ix2 p q := ⟨j 0, j 1, eq_ix2 j⟩
  rw [select_apply, bcast_axis0_apply]
  exact select_one _ _

/-- The guarded take of 64-wide rows is the plain gather where every id is in range. -/
theorem take64 (h : FVec Ideal S100000x64 .f32) (s : IVec S1700000 32) (hs : ∀ i, 0 ≤ (s i).toInt ∧ (s i).toInt < 100000) :
    select (broadcastInDim S1700000x64 ![0] bcast_S1700000_S1700000x64_0 (inRange s))
        (Host.gather gather_S100000x64_S1700000x1_S1700000x64_1_0_n_n_0_1_164 h (wrapCol s))
        (broadcastInDim S1700000x64 ![] bcast_S_S1700000x64 (constant (F := Ideal) S_ .f32 0x7FC00000#32))
      = Host.gather gather_S100000x64_S1700000x1_S1700000x64_1_0_n_n_0_1_164 h (wrapCol s) := by
  rw [inRange_one s hs]
  funext j
  obtain ⟨p, q, rfl⟩ : ∃ (p : Fin 1700000) (q : Fin 64), j = ix2 p q := ⟨j 0, j 1, eq_ix2 j⟩
  rw [select_apply, bcast_axis0_apply]
  exact select_one _ _

/-- The first row of a [2 × n] array, cut out and flattened, reads at k the array at (0, k). -/
private theorem row0_apply {n : Nat} (e : IVec ⟨2, ![2, n]⟩ 32) (hS : (⟨2, ![2, n]⟩ : Shape).Slices ![0, 0] ⟨2, ![1, n]⟩)
    (hC : (⟨2, ![1, n]⟩ : Shape).ShapeCasts ⟨1, ![n]⟩) (k : Fin n) :
    shapeCast ⟨1, ![n]⟩ (extractStridedSlice ⟨2, ![1, n]⟩ ![0, 0] e hS) hC (ix1 k) = e (ix2 (0 : Fin 2) k) := by
  rw [shapeCast_1a_a_apply]
  exact extractStridedSlice_apply _ _ _ _ _ (fun ax => by
    match ax with
    | ⟨0, _⟩ => rfl
    | ⟨1, _⟩ => exact (Nat.zero_add _).symm)

/-- Below 1600000 the source ids are the edge list's first row. -/
private theorem srcIds_left (e : IVec S2x1600000 32) (i : Fin 1700000) (hi : i.val < 1600000) :
    srcIds e (ix1 i) = e (ix2 (0 : Fin 2) ⟨i.val, hi⟩) := by
  unfold srcIds
  rw [concatenate_pair_apply_left (t := S1700000) (s₁ := S1600000) (s₂ := S100000) (0 : Fin 1) _ _ _ (ix1 i) rfl (ix1 (⟨i.val, hi⟩ : Fin 1600000))
    (fun b => by match b with | ⟨0, _⟩ => rfl)]
  exact row0_apply e _ _ _

/-- From 1600000 on the source ids are the node numbers. -/
private theorem srcIds_right (e : IVec S2x1600000 32) (i : Fin 1700000) (hi : 1600000 ≤ i.val) :
    srcIds e (ix1 i) = BitVec.ofNat 32 (i.val - 1600000) := by
  unfold srcIds
  rw [concatenate_pair_apply_right (t := S1700000) (s₁ := S1600000) (s₂ := S100000) (0 : Fin 1) _ _ _ (ix1 i) rfl rfl (ix1 (⟨i.val - 1600000, by have := i.isLt; omega⟩ : Fin 100000))
    (fun b hb => absurd (Subsingleton.elim _ _) hb) (by show i.val - 1600000 + 1600000 = i.val; omega)]
  rfl

private theorem sge_zero_toInt {x : BitVec 32} (h : IntOp.cmpi .sge x 0#32 = 1#1) : 0 ≤ x.toInt := by
  have hz : (0#32).toInt = 0 := by decide
  have h' : BitVec.ofBool ((0#32).sle x) = 1#1 := h
  rw [StableHlo.Predicate.ofBool_eq_one_iff] at h'
  simp only [BitVec.sle, hz, decide_eq_true_eq] at h'
  exact h'

private theorem slt_bound_toInt {x : BitVec 32} (h : IntOp.cmpi .slt x 100000#32 = 1#1) : x.toInt < 100000 := by
  have hm : (100000#32).toInt = 100000 := by decide
  have h' : BitVec.ofBool (x.slt 100000#32) = 1#1 := h
  rw [StableHlo.Predicate.ofBool_eq_one_iff] at h'
  simp only [BitVec.slt, hm, decide_eq_true_eq] at h'
  exact h'

/-- The precondition's last conjunct, read back: every entry of the edge list's first row lies in [0, 100000). -/
private theorem pre_row0 [Cert.Pre_finite_inputs.Facts]
    (a0 : FVec Ideal Cert.Pre_finite_inputs.S100000x128 .f32) (e : IVec S2x1600000 32) (a2 : FVec Ideal Cert.Pre_finite_inputs.S128x128 .f32)
    (a3 : FVec Ideal Cert.Pre_finite_inputs.S128 .f32) (a4 : FVec Ideal Cert.Pre_finite_inputs.S128x128 .f32) (a5 : FVec Ideal Cert.Pre_finite_inputs.S128 .f32)
    (a6 : FVec Ideal Cert.Pre_finite_inputs.S128x64 .f32) (a7 : FVec Ideal Cert.Pre_finite_inputs.S64 .f32)
    (a8 : FVec Ideal Cert.Pre_finite_inputs.S128x64 .f32) (a9 : FVec Ideal Cert.Pre_finite_inputs.S64 .f32)
    (hpre : Cert.Pre_finite_inputs.fn (F := Ideal) a0 e a2 a3 a4 a5 a6 a7 a8 a9 = fun _ => 1#1) (k : Fin 1600000) :
    0 ≤ (e (ix2 (0 : Fin 2) k)).toInt ∧ (e (ix2 (0 : Fin 2) k)).toInt < 100000 := by
  have h := congrFun hpre ix0
  simp only [Cert.Pre_finite_inputs.fn, Cert.Pre_finite_inputs.fn_part1, Cert.Pre_finite_inputs.fn_part2,
    Cert.Pre_finite_inputs.fn_part3] at h
  have h53 := (IntOp.andi_eq_one.1 h).2
  haveI : Subsingleton Cert.Pre_finite_inputs.S_.Idx := ⟨fun a b => funext fun d => d.elim0⟩
  have hk := Host.reduce_andi_all _ _ _ _ _ h53 (ix1 k)
  obtain ⟨hge, hlt⟩ := IntOp.andi_eq_one.1 hk
  have hge' : IntOp.cmpi .sge (e (ix2 (0 : Fin 2) k)) 0#32 = 1#1 := by
    rw [← row0_apply e Cert.Pre_finite_inputs.Facts.slices_S2x1600000_S1x1600000_0_0 Cert.Pre_finite_inputs.Facts.shapeCasts_S1x1600000_S1600000 k]
    exact hge
  have hlt' : IntOp.cmpi .slt (e (ix2 (0 : Fin 2) k)) 100000#32 = 1#1 := by
    rw [← row0_apply e Cert.Pre_finite_inputs.Facts.slices_S2x1600000_S1x1600000_0_0 Cert.Pre_finite_inputs.Facts.shapeCasts_S1x1600000_S1600000 k]
    exact hlt
  exact ⟨sge_zero_toInt hge', slt_bound_toInt hlt'⟩

/-- Under the claim's precondition every source id lies in [0, 100000): the edge list's first row by the precondition's
    last conjunct, the self-loop ids because they are the numbers 0 … 99999. -/
theorem srcIds_inRange [Cert.Pre_finite_inputs.Facts]
    (a0 : FVec Ideal Cert.Pre_finite_inputs.S100000x128 .f32) (e : IVec S2x1600000 32) (a2 : FVec Ideal Cert.Pre_finite_inputs.S128x128 .f32)
    (a3 : FVec Ideal Cert.Pre_finite_inputs.S128 .f32) (a4 : FVec Ideal Cert.Pre_finite_inputs.S128x128 .f32) (a5 : FVec Ideal Cert.Pre_finite_inputs.S128 .f32)
    (a6 : FVec Ideal Cert.Pre_finite_inputs.S128x64 .f32) (a7 : FVec Ideal Cert.Pre_finite_inputs.S64 .f32)
    (a8 : FVec Ideal Cert.Pre_finite_inputs.S128x64 .f32) (a9 : FVec Ideal Cert.Pre_finite_inputs.S64 .f32)
    (hpre : Cert.Pre_finite_inputs.fn (F := Ideal) a0 e a2 a3 a4 a5 a6 a7 a8 a9 = fun _ => 1#1) :
    ∀ i, 0 ≤ (srcIds e i).toInt ∧ (srcIds e i).toInt < 100000 := by
  intro i
  obtain ⟨p, rfl⟩ : ∃ p : Fin 1700000, i = ix1 p := ⟨i 0, eq_ix1 i⟩
  by_cases hp : p.val < 1600000
  · rw [srcIds_left e p hp]
    exact pre_row0 a0 e a2 a3 a4 a5 a6 a7 a8 a9 hpre _
  · have hp' : 1600000 ≤ p.val := Nat.le_of_not_lt hp
    have hlt := p.isLt
    rw [srcIds_right e p hp', StableHlo.Predicate.toInt_ofNat_small _ (by omega)]
    omega

/-- A d-vector reshaped to a 1×d row is the vector broadcast along axis 1. -/
private theorem reshape_row {α : Type} {d : Nat} (b : (⟨1, ![d]⟩ : Shape).Idx → α)
    (hc : (⟨1, ![d]⟩ : Shape).ShapeCasts ⟨2, ![1, d]⟩) (hb : (⟨1, ![d]⟩ : Shape).BroadcastsInDim ⟨2, ![1, d]⟩ ![1]) :
    shapeCast ⟨2, ![1, d]⟩ b hc = broadcastInDim ⟨2, ![1, d]⟩ ![1] hb b := by
  funext j
  obtain ⟨p, q, rfl⟩ : ∃ (p : Fin 1) (q : Fin d), j = ix2 p q := ⟨j 0, j 1, eq_ix2 j⟩
  rw [shapeCast_a_1a_apply]
  simp only [broadcastInDim]
  congr 1
  funext a
  match a with
  | ⟨0, _⟩ =>
    apply Fin.ext
    have hq := q.isLt
    split
    · next h1 => change d = 1 at h1; show q.val = 0; omega
    · rfl

/-- A 128-vector reshaped to a 1×128 row is the vector broadcast along axis 1. -/
theorem reshape_row128 {α : Type} (b : S128.Idx → α) (hb : S128.BroadcastsInDim S1x128 ![1]) :
    shapeCast S1x128 b shapeCasts_S128_S1x128 = broadcastInDim S1x128 ![1] hb b :=
  reshape_row b _ hb

/-- A 64-vector reshaped to a 1×64 row is the vector broadcast along axis 1. -/
theorem reshape_row64 {α : Type} (b : S64.Idx → α) (hb : S64.BroadcastsInDim S1x64 ![1]) :
    shapeCast S1x64 b shapeCasts_S64_S1x64 = broadcastInDim S1x64 ![1] hb b :=
  reshape_row b _ hb

end Cert.KernelIdeal.Take

end
-- ==== Proof.Spec.lean ====
/-
  The encoder as functions of its ten argument arrays.

  A graph of 100000 nodes is given by an edge list `e` (row 0 the source ids, row 1 the destination ids of 1600000
  edges); every node also gets a self-loop, so the 1700000 source ids are row 0 followed by 0 … 99999 and likewise
  the destination ids. The degree of a node counts the edges that end at it, `dinv = deg^(-1/2)`, and an edge's weight
  is `dinv (src) · dinv (dst)`. One propagation of a feature matrix `h` with a weight matrix `W` is: the product
  `h · W`, its rows taken at the source ids, each scaled by its edge's weight, and summed into the row of the
  destination id. A hidden layer adds a bias row and clamps below at zero; an output head only adds the bias. The encoder
  is two hidden layers and two heads (`mu`, `logstd`) over the second layer's features.

  Each function below is the reference program's own chain of operations for that step, so that the reference's result
  is these functions of its arguments by unfolding.
-/
import proofs.«409801_j72988674228409_1_alg».proof.ReferenceIdeal
import proofs.«409801_j72988674228409_1_alg».proof.Proof.Gen.ReferenceIdeal
import proofs.«409801_j72988674228409_1_alg».proof.Proof.Gen.ReferenceIdeal.Run

noncomputable section

namespace Cert.Spec

open Cert.ReferenceIdeal Cert.ReferenceIdeal.Gen Idealize.ShloMosaic Idealize.ShloMosaic.TcCoe Idealize.SL.Sem

variable {F : FTy → Type} [FloatOps F]

/-- The source ids: row 0 of the edge list, then the node numbers. -/
def srcIds (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destination ids: row 1 of the edge list, then the node numbers. -/
def dstIds (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Ids as a column of start indices, a negative id first wrapped by the number of nodes. -/
def wrapCol (s : IVec S1700000 32) : IVec S1700000x1 32 :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- The destination ids as the column of scatter indices (not wrapped: an id outside the nodes drops its edge). -/
def dstCol (e : IVec S2x1600000 32) : IVec S1700000x1 32 :=
  broadcastInDim S1700000x1 ![0] bcast_S1700000_S1700000x1_0 (dstIds e)

/-- `deg^(-1/2)`, the degree counting one for every edge and self-loop that ends at the node. -/
def dinv (e : IVec S2x1600000 32) : FVec F S100000 .f32 :=
  Host.rsqrt (Host.scatterAdd scatter_S100000_S1700000x1_S1700000_n_0_0_1 (broadcastInDim S100000 ![] bcast_S_S100000 (constant S_ .f32 0x00000000#32)) (dstCol e) (broadcastInDim S1700000 ![] bcast_S_S1700000 (constant S_ .f32 0x3F800000#32)))

/-- The edge weights `dinv (src) · dinv (dst)`. -/
def norm (e : IVec S2x1600000 32) : FVec F S1700000 .f32 :=
  mulf (Host.gather gather_S100000_S1700000x1_S1700000_n_0_n_n_0_1_1 (dinv (F := F) e) (wrapCol (srcIds e))) (Host.gather gather_S100000_S1700000x1_S1700000_n_0_n_n_0_1_1 (dinv (F := F) e) (wrapCol (dstIds e)))

/-- 128-wide rows taken at the source ids, scaled by the edge weights, summed into the destination rows. -/
def agg128 (e : IVec S2x1600000 32) (h : FVec F S100000x128 .f32) : FVec F S100000x128 .f32 :=
  Host.scatterAdd scatter_S100000x128_S1700000x1_S1700000x128_1_0_0_1 (broadcastInDim S100000x128 ![] bcast_S_S100000x128 (constant S_ .f32 0x00000000#32)) (dstCol e) (mulf (Host.gather gather_S100000x128_S1700000x1_S1700000x128_1_0_n_n_0_1_1128 h (wrapCol (srcIds e))) (broadcastInDim S1700000x128 ![0, 1] bcast_S1700000x1_S1700000x128_0_1 (broadcastInDim S1700000x1 ![0] bcast_S1700000_S1700000x1_0 (norm (F := F) e))))

/-- The same for 64-wide rows. -/
def agg64 (e : IVec S2x1600000 32) (h : FVec F S100000x64 .f32) : FVec F S100000x64 .f32 :=
  Host.scatterAdd scatter_S100000x64_S1700000x1_S1700000x64_1_0_0_1 (broadcastInDim S100000x64 ![] bcast_S_S100000x64 (constant S_ .f32 0x00000000#32)) (dstCol e) (mulf (Host.gather gather_S100000x64_S1700000x1_S1700000x64_1_0_n_n_0_1_164 h (wrapCol (srcIds e))) (broadcastInDim S1700000x64 ![0, 1] bcast_S1700000x1_S1700000x64_0_1 (broadcastInDim S1700000x1 ![0] bcast_S1700000_S1700000x1_0 (norm (F := F) e))))

/-- A hidden layer: propagate `h · W`, add the bias row, clamp below at zero. -/
def layer (e : IVec S2x1600000 32) (h : FVec F S100000x128 .f32) (W : FVec F S128x128 .f32) (b : FVec F S128 .f32) : FVec F S100000x128 .f32 :=
  maximumf (addf (agg128 e (Host.dotGeneral dot_S100000x128_S128x128_S100000x128_1_0_0_1_n_n none h W)) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- An output head: propagate `h · W`, add the bias row. -/
def head (e : IVec S2x1600000 32) (h : FVec F S100000x128 .f32) (W : FVec F S128x64 .f32) (b : FVec F S64 .f32) : FVec F S100000x64 .f32 :=
  addf (agg64 e (Host.dotGeneral dot_S100000x128_S128x64_S100000x64_1_0_0_1_n_n none h W)) (broadcastInDim S100000x64 ![0, 1] bcast_S1x64_S100000x64_0_1 (broadcastInDim S1x64 ![1] bcast_S64_S1x64_1 b))

/-- The features after the two hidden layers. -/
def hidden (x : FVec F S100000x128 .f32) (e : IVec S2x1600000 32) (W1 : FVec F S128x128 .f32) (b1 : FVec F S128 .f32) (W2 : FVec F S128x128 .f32) (b2 : FVec F S128 .f32) : FVec F S100000x128 .f32 :=
  layer e (layer e x W1 b1) W2 b2

end Cert.Spec

/-! ## The reference's two results are these functions of its arguments -/

namespace Cert.ReferenceIdeal.RefSpec

open Cert.ReferenceIdeal Cert.ReferenceIdeal.Gen Idealize.ShloMosaic Idealize.ShloMosaic.TcCoe Idealize.SL.Sem

variable {F : FTy → Type} [FloatOps F]

set_option maxRecDepth 8192 in
/-- The first result (`mu`) is the first head over the hidden features. -/
theorem out0_eq (m : (ℓ : Loc nD τ sig) → Buf (Elt F) ℓ) (c : Dev nD) :
    Cert.ReferenceIdeal.Value.res_main_v79 m c
      = Cert.Spec.head (m ((c.tc : Thread nD τ).loc main_arg1))
          (Cert.Spec.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
          (m ((c.tc : Thread nD τ).loc main_arg6)) (m ((c.tc : Thread nD τ).loc main_arg7)) := rfl

set_option maxRecDepth 8192 in
/-- The second result (`logstd`) is the second head over the same hidden features. -/
theorem out1_eq (m : (ℓ : Loc nD τ sig) → Buf (Elt F) ℓ) (c : Dev nD) :
    Cert.ReferenceIdeal.Value.res_main_v96 m c
      = Cert.Spec.head (m ((c.tc : Thread nD τ).loc main_arg1))
          (Cert.Spec.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
          (m ((c.tc : Thread nD τ).loc main_arg8)) (m ((c.tc : Thread nD τ).loc main_arg9)) := rfl

end Cert.ReferenceIdeal.RefSpec

end
-- ==== Proof.KHost.lean ====
/-
  The host stretches of the kernel program, each read as a function of the buffers it starts from.

  Between its regions the kernel program runs the same host operations as the reference: before the first region the
  source and destination ids, the degrees and the edge weights; after each matrix-product region the propagation step
  (rows taken at the source ids, scaled by the edge weights, summed into the destination rows) and the reshape of the
  next bias vector to a row. The one difference from the reference is in how rows are taken: under a range guard that
  replaces a row whose id is out of range by a fill value.
-/
import proofs.«409801_j72988674228409_1_alg».proof.Proof.Gen.KernelIdeal.Launch
import proofs.«409801_j72988674228409_1_alg».proof.Proof.TakeFill
import proofs.«409801_j72988674228409_1_alg».proof.Proof.Spec
import Idealize.ShloMosaic.Lib.StableHlo.Run
import Idealize.ShloMosaic.PureOps.Ideal

set_option maxRecDepth 16384

noncomputable section

namespace Cert.KernelIdeal.Gen

open Idealize.ShloMosaic Idealize.ShloMosaic.TcCoe Idealize.SL.Sem Idealize.ShloMosaic.StableHlo
open Cert.KernelIdeal.Take

/-- A buffer is written by no operation of a host stretch: each operation's one result buffer is another. -/
macro "not_written" ops:ident : tactic => `(tactic| exact List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The first stretch: ids, degrees, edge weights -/

/-- The destination ids: row 1 of the edge list, then the node numbers. -/
def dstIds (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩,
    ⟨S100000, iotaInDim S100000 32 0⟩] concatenates_S1600000_S100000_S1700000_d0

/-- `deg^(-1/2)`, the degree counting one for every edge and self-loop that ends at the node. -/
def dinv (e : IVec S2x1600000 32) : FVec Ideal S100000 .f32 :=
  Host.rsqrt (Host.scatterAdd scatter_S100000_S1700000x1_S1700000_n_0_0_1 (broadcastInDim S100000 ![] bcast_S_S100000 (constant (F := Ideal) S_ .f32 0x00000000#32))
    (broadcastInDim S1700000x1 ![0] bcast_S1700000_S1700000x1_0 (dstIds e)) (broadcastInDim S1700000 ![] bcast_S_S1700000 (constant (F := Ideal) S_ .f32 0x3F800000#32)))

/-- The edge weights `dinv (src) · dinv (dst)`. -/
def norm (e : IVec S2x1600000 32) : FVec Ideal S1700000 .f32 :=
  mulf (Host.gather gather_S100000_S1700000x1_S1700000_n_0_n_n_0_1_1 (dinv e) (wrapCol (srcIds e)))
    (Host.gather gather_S100000_S1700000x1_S1700000_n_0_n_n_0_1_1 (dinv e) (wrapCol (dstIds e)))

set_option maxHeartbeats 8000000 in
/-- After the first stretch the source-id buffer holds the source ids of the edge list it started from. -/
theorem s0_src (W : Valuation τ sig (Elt Ideal)) :
    StableHlo.after hostOps0 W (Proc.devRef .tc main_v3) = srcIds (W (Proc.devRef .tc main_arg1)) := by
  dsimp only [hostOps0]; after_results_simp; rfl

set_option maxHeartbeats 8000000 in
/-- … the destination-id buffer the destination ids … -/
theorem s0_dst (W : Valuation τ sig (Elt Ideal)) :
    StableHlo.after hostOps0 W (Proc.devRef .tc main_v6) = dstIds (W (Proc.devRef .tc main_arg1)) := by
  dsimp only [hostOps0]; after_results_simp; rfl

set_option maxHeartbeats 8000000 in
/-- … and the edge-weight buffer the edge weights. -/
theorem s0_norm (W : Valuation τ sig (Elt Ideal)) :
    StableHlo.after hostOps0 W (Proc.devRef .tc main_v26) = norm (W (Proc.devRef .tc main_arg1)) := by
  dsimp only [hostOps0]; after_results_simp; rfl

/-! ## The four propagation stretches -/

/-- A transport there and back is the identity. -/
private theorem cast_cast_id {α β : Type} (h1 : β = α) (h2 : α = β) (v : α) : cast h1 (cast h2 v) = v := by
  subst h1; rfl

set_option maxHeartbeats 8000000 in
/-- Stretch 1: the rows of the product just computed are taken at the source ids under the range guard, scaled by the edge
    weights and summed into the destination rows. -/
theorem s1_agg (W : Valuation τ sig (Elt Ideal)) :
    StableHlo.after hostOps1_1 (StableHlo.after hostOps1 W) (Proc.devRef .tc main_v34)
      = Host.scatterAdd scatter_S100000x128_S1700000x1_S1700000x128_1_0_0_1 (broadcastInDim S100000x128 ![] bcast_S_S100000x128 (constant (F := Ideal) S_ .f32 0x00000000#32))
        (broadcastInDim S1700000x1 ![0] bcast_S1700000_S1700000x1_0 (W (Proc.devRef .tc main_v6)))
        (mulf (select (broadcastInDim S1700000x128 ![0] bcast_S1700000_S1700000x128_0 (Take.inRange (W (Proc.devRef .tc main_v3))))
                (Host.gather gather_S100000x128_S1700000x1_S1700000x128_1_0_n_n_0_1_1128 (W (Proc.devRef .tc main_v27)) (Take.wrapCol (W (Proc.devRef .tc main_v3))))
                (broadcastInDim S1700000x128 ![] bcast_S_S1700000x128 (constant (F := Ideal) S_ .f32 0x7FC00000#32)))
          (broadcastInDim S1700000x128 ![0, 1] bcast_S1700000x1_S1700000x128_0_1 (broadcastInDim S1700000x1 ![0] bcast_S1700000_S1700000x1_0 (W (Proc.devRef .tc main_v26))))) := by
  dsimp only [hostOps1, hostOps1_1]; after_results_simp
  simp only [cast_cast_id]
  simp only [cast_eq]
  unfold Take.inRange Take.wrapCol
  set_option maxHeartbeats 400000 in rfl

set_option maxHeartbeats 8000000 in
/-- Stretch 1 also reshapes the bias vector to a row. -/
theorem s1_bias (W : Valuation τ sig (Elt Ideal)) :
    StableHlo.after hostOps1_1 (StableHlo.after hostOps1 W) (Proc.devRef .tc main_v35)
      = shapeCast S1x128 (W (Proc.devRef .tc main_arg3)) shapeCasts_S128_S1x128 := by
  dsimp only [hostOps1, hostOps1_1]; after_results_simp; rfl

set_option maxHeartbeats 8000000 in
/-- Stretch 3: the rows of the product just computed are taken at the source ids under the range guard, scaled by the edge
    weights and summed into the destination rows. -/
theorem s3_agg (W : Valuation τ sig (Elt Ideal)) :
    StableHlo.after hostOps3_1 (StableHlo.after hostOps3 W) (Proc.devRef .tc main_v44)
      = Host.scatterAdd scatter_S100000x128_S1700000x1_S1700000x128_1_0_0_1 (broadcastInDim S100000x128 ![] bcast_S_S100000x128 (constant (F := Ideal) S_ .f32 0x00000000#32))
        (broadcastInDim S1700000x1 ![0] bcast_S1700000_S1700000x1_0 (W (Proc.devRef .tc main_v6)))
        (mulf (select (broadcastInDim S1700000x128 ![0] bcast_S1700000_S1700000x128_0 (Take.inRange (W (Proc.devRef .tc main_v3))))
                (Host.gather gather_S100000x128_S1700000x1_S1700000x128_1_0_n_n_0_1_1128 (W (Proc.devRef .tc main_v37)) (Take.wrapCol (W (Proc.devRef .tc main_v3))))
                (broadcastInDim S1700000x128 ![] bcast_S_S1700000x128 (constant (F := Ideal) S_ .f32 0x7FC00000#32)))
          (broadcastInDim S1700000x128 ![0, 1] bcast_S1700000x1_S1700000x128_0_1 (broadcastInDim S1700000x1 ![0] bcast_S1700000_S1700000x1_0 (W (Proc.devRef .tc main_v26))))) := by
  dsimp only [hostOps3, hostOps3_1]; after_results_simp
  simp only [cast_cast_id]
  simp only [cast_eq]
  unfold Take.inRange Take.wrapCol
  set_option maxHeartbeats 400000 in rfl

set_option maxHeartbeats 8000000 in
/-- Stretch 3 also reshapes the bias vector to a row. -/
theorem s3_bias (W : Valuation τ sig (Elt Ideal)) :
    StableHlo.after hostOps3_1 (StableHlo.after hostOps3 W) (Proc.devRef .tc main_v45)
      = shapeCast S1x128 (W (Proc.devRef .tc main_arg5)) shapeCasts_S128_S1x128 := by
  dsimp only [hostOps3, hostOps3_1]; after_results_simp; rfl

set_option maxHeartbeats 8000000 in
/-- Stretch 5: the rows of the product just computed are taken at the source ids under the range guard, scaled by the edge
    weights and summed into the destination rows. -/
theorem s5_agg (W : Valuation τ sig (Elt Ideal)) :
    StableHlo.after hostOps5_1 (StableHlo.after hostOps5 W) (Proc.devRef .tc main_v54)
      = Host.scatterAdd scatter_S100000x64_S1700000x1_S1700000x64_1_0_0_1 (broadcastInDim S100000x64 ![] bcast_S_S100000x64 (constant (F := Ideal) S_ .f32 0x00000000#32))
        (broadcastInDim S1700000x1 ![0] bcast_S1700000_S1700000x1_0 (W (Proc.devRef .tc main_v6)))
        (mulf (select (broadcastInDim S1700000x64 ![0] bcast_S1700000_S1700000x64_0 (Take.inRange (W (Proc.devRef .tc main_v3))))
                (Host.gather gather_S100000x64_S1700000x1_S1700000x64_1_0_n_n_0_1_164 (W (Proc.devRef .tc main_v47)) (Take.wrapCol (W (Proc.devRef .tc main_v3))))
                (broadcastInDim S1700000x64 ![] bcast_S_S1700000x64 (constant (F := Ideal) S_ .f32 0x7FC00000#32)))
          (broadcastInDim S1700000x64 ![0, 1] bcast_S1700000x1_S1700000x64_0_1 (broadcastInDim S1700000x1 ![0] bcast_S1700000_S1700000x1_0 (W (Proc.devRef .tc main_v26))))) := by
  dsimp only [hostOps5, hostOps5_1]; after_results_simp
  simp only [cast_cast_id]
  simp only [cast_eq]
  unfold Take.inRange Take.wrapCol
  set_option maxHeartbeats 400000 in rfl

set_option maxHeartbeats 8000000 in
/-- Stretch 5 also reshapes the bias vector to a row. -/
theorem s5_bias (W : Valuation τ sig (Elt Ideal)) :
    StableHlo.after hostOps5_1 (StableHlo.after hostOps5 W) (Proc.devRef .tc main_v55)
      = shapeCast S1x64 (W (Proc.devRef .tc main_arg7)) shapeCasts_S64_S1x64 := by
  dsimp only [hostOps5, hostOps5_1]; after_results_simp; rfl

set_option maxHeartbeats 8000000 in
/-- Stretch 7: the rows of the product just computed are taken at the source ids under the range guard, scaled by the edge
    weights and summed into the destination rows. -/
theorem s7_agg (W : Valuation τ sig (Elt Ideal)) :
    StableHlo.after hostOps7_1 (StableHlo.after hostOps7 W) (Proc.devRef .tc main_v64)
      = Host.scatterAdd scatter_S100000x64_S1700000x1_S1700000x64_1_0_0_1 (broadcastInDim S100000x64 ![] bcast_S_S100000x64 (constant (F := Ideal) S_ .f32 0x00000000#32))
        (broadcastInDim S1700000x1 ![0] bcast_S1700000_S1700000x1_0 (W (Proc.devRef .tc main_v6)))
        (mulf (select (broadcastInDim S1700000x64 ![0] bcast_S1700000_S1700000x64_0 (Take.inRange (W (Proc.devRef .tc main_v3))))
                (Host.gather gather_S100000x64_S1700000x1_S1700000x64_1_0_n_n_0_1_164 (W (Proc.devRef .tc main_v57)) (Take.wrapCol (W (Proc.devRef .tc main_v3))))
                (broadcastInDim S1700000x64 ![] bcast_S_S1700000x64 (constant (F := Ideal) S_ .f32 0x7FC00000#32)))
          (broadcastInDim S1700000x64 ![0, 1] bcast_S1700000x1_S1700000x64_0_1 (broadcastInDim S1700000x1 ![0] bcast_S1700000_S1700000x1_0 (W (Proc.devRef .tc main_v26))))) := by
  dsimp only [hostOps7, hostOps7_1]; after_results_simp
  simp only [cast_cast_id]
  simp only [cast_eq]
  unfold Take.inRange Take.wrapCol
  set_option maxHeartbeats 400000 in rfl

set_option maxHeartbeats 8000000 in
/-- Stretch 7 also reshapes the bias vector to a row. -/
theorem s7_bias (W : Valuation τ sig (Elt Ideal)) :
    StableHlo.after hostOps7_1 (StableHlo.after hostOps7 W) (Proc.devRef .tc main_v65)
      = shapeCast S1x64 (W (Proc.devRef .tc main_arg9)) shapeCasts_S64_S1x64 := by
  dsimp only [hostOps7, hostOps7_1]; after_results_simp; rfl

/-! ## The same functions in the reference program's spelling

The two programs print the same operations with dimension records of their own; the records have the same fields. -/

/-! Each dimension record has the same fields in the two programs. -/
theorem gather1_eq : gather_S100000_S1700000x1_S1700000_n_0_n_n_0_1_1 = Cert.ReferenceIdeal.gather_S100000_S1700000x1_S1700000_n_0_n_n_0_1_1 := rfl
theorem gather128_eq : gather_S100000x128_S1700000x1_S1700000x128_1_0_n_n_0_1_1128 = Cert.ReferenceIdeal.gather_S100000x128_S1700000x1_S1700000x128_1_0_n_n_0_1_1128 := rfl
theorem gather64_eq : gather_S100000x64_S1700000x1_S1700000x64_1_0_n_n_0_1_164 = Cert.ReferenceIdeal.gather_S100000x64_S1700000x1_S1700000x64_1_0_n_n_0_1_164 := rfl
theorem scatter1_eq : scatter_S100000_S1700000x1_S1700000_n_0_0_1 = Cert.ReferenceIdeal.scatter_S100000_S1700000x1_S1700000_n_0_0_1 := rfl
theorem scatter128_eq : scatter_S100000x128_S1700000x1_S1700000x128_1_0_0_1 = Cert.ReferenceIdeal.scatter_S100000x128_S1700000x1_S1700000x128_1_0_0_1 := rfl
theorem scatter64_eq : scatter_S100000x64_S1700000x1_S1700000x64_1_0_0_1 = Cert.ReferenceIdeal.scatter_S100000x64_S1700000x1_S1700000x64_1_0_0_1 := rfl
theorem dot128_eq : Cert.ReferenceIdeal.dot_S100000x128_S128x128_S100000x128_1_0_0_1_n_n = DotDims.plain 100000 128 128 := rfl
theorem dot64_eq : Cert.ReferenceIdeal.dot_S100000x128_S128x64_S100000x64_1_0_0_1_n_n = DotDims.plain 100000 128 64 := rfl

theorem srcIds_spec (e : IVec S2x1600000 32) : srcIds e = Cert.Spec.srcIds e := rfl
theorem dstIds_spec (e : IVec S2x1600000 32) : dstIds e = Cert.Spec.dstIds e := rfl
theorem wrapCol_spec (s : IVec S1700000 32) : wrapCol s = Cert.Spec.wrapCol s := rfl
theorem norm_spec (e : IVec S2x1600000 32) : norm e = Cert.Spec.norm (F := Ideal) e := by
  unfold norm dinv Cert.Spec.norm Cert.Spec.dinv Cert.Spec.dstCol
  rw [gather1_eq, scatter1_eq, srcIds_spec, dstIds_spec, wrapCol_spec, wrapCol_spec]

/-- The propagation step without the guard, in the kernel program's records, is the reference's. -/
theorem agg128_spec (e : IVec S2x1600000 32) (h : FVec Ideal S100000x128 .f32) :
    Host.scatterAdd scatter_S100000x128_S1700000x1_S1700000x128_1_0_0_1 (broadcastInDim S100000x128 ![] bcast_S_S100000x128 (constant (F := Ideal) S_ .f32 0x00000000#32))
        (broadcastInDim S1700000x1 ![0] bcast_S1700000_S1700000x1_0 (dstIds e))
        (mulf (Host.gather gather_S100000x128_S1700000x1_S1700000x128_1_0_n_n_0_1_1128 h (wrapCol (srcIds e)))
          (broadcastInDim S1700000x128 ![0, 1] bcast_S1700000x1_S1700000x128_0_1 (broadcastInDim S1700000x1 ![0] bcast_S1700000_S1700000x1_0 (norm e))))
      = Cert.Spec.agg128 (F := Ideal) e h := by
  unfold Cert.Spec.agg128 Cert.Spec.dstCol
  rw [gather128_eq, scatter128_eq, srcIds_spec, dstIds_spec, wrapCol_spec, norm_spec]

theorem agg64_spec (e : IVec S2x1600000 32) (h : FVec Ideal S100000x64 .f32) :
    Host.scatterAdd scatter_S100000x64_S1700000x1_S1700000x64_1_0_0_1 (broadcastInDim S100000x64 ![] bcast_S_S100000x64 (constant (F := Ideal) S_ .f32 0x00000000#32))
        (broadcastInDim S1700000x1 ![0] bcast_S1700000_S1700000x1_0 (dstIds e))
        (mulf (Host.gather gather_S100000x64_S1700000x1_S1700000x64_1_0_n_n_0_1_164 h (wrapCol (srcIds e)))
          (broadcastInDim S1700000x64 ![0, 1] bcast_S1700000x1_S1700000x64_0_1 (broadcastInDim S1700000x1 ![0] bcast_S1700000_S1700000x1_0 (norm e))))
      = Cert.Spec.agg64 (F := Ideal) e h := by
  unfold Cert.Spec.agg64 Cert.Spec.dstCol
  rw [gather64_eq, scatter64_eq, srcIds_spec, dstIds_spec, wrapCol_spec, norm_spec]

/-- The whole product in the plain dimension numbers is the reference's `dot_general`. -/
theorem dot128_spec (h : FVec Ideal S100000x128 .f32) (w : FVec Ideal S128x128 .f32) :
    Host.dotGeneral (F := Ideal) (φ₁ := .f32) (φ₂ := .f32) (DotDims.plain 100000 128 128) none h w
      = Host.dotGeneral Cert.ReferenceIdeal.dot_S100000x128_S128x128_S100000x128_1_0_0_1_n_n none h w := by
  rw [dot128_eq]
theorem dot64_spec (h : FVec Ideal S100000x128 .f32) (w : FVec Ideal S128x64 .f32) :
    Host.dotGeneral (F := Ideal) (φ₁ := .f32) (φ₂ := .f32) (DotDims.plain 100000 128 64) none h w
      = Host.dotGeneral Cert.ReferenceIdeal.dot_S100000x128_S128x64_S100000x64_1_0_0_1_n_n none h w := by
  rw [dot64_eq]

end Cert.KernelIdeal.Gen

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.RegMM0.lean ====
/-
  Region 0 of the kernel program: a row-blocked matrix product.

  The region cuts the 100000 rows of its left operand into ten blocks of 10000 rows; at every grid point it multiplies
  that block by the whole 128×128 right operand into a zero accumulator and writes the product back as the same
  block of rows of the result. Read over the extended reals, entry (r, q) of the result array after the run is
  `∑ k, X (r, k) * W (k, q)`, which is the whole product of the two arrays as the region finds them: the row blocks tile
  the result, and a row of the product depends only on the same row of the left operand.
-/
import proofs.«409801_j72988674228409_1_alg».proof.Proof.Gen.KernelIdeal.Frame
import proofs.«409801_j72988674228409_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's payload at an entry -/

/-- The block offsets of the body's loads and store are zero on both axes. -/
theorem off_zero0 : (![0, 0] : Fin 2 → Nat) = fun _ => 0 := funext fun a => by fin_cases a <;> rfl

/-- The dimension numbers of the body's product are those of a plain 10000×128 by 128×128 product. -/
theorem dot0_eq : dot_S10000x128_S128x128_S10000x128_1_0_0_1_n_n = DotDims.plain 10000 128 128 := rfl

/-- Over the extended reals a change of float format is the identity, so entry `(p, q)` of what the body stores is
    `∑ k, x0 (p, k) * x1 (k, q)` of the two blocks it loaded: the accumulator is zero. -/
theorem pay0_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  simp only [shapeCast_self, dot0_eq]
  exact Cert.Lib.PlainDot.matmul_zero_apply (M := 10000) (K := 128) (N := 128) (φ₁ := .bf16) (φ₂ := .bf16) none x0 x1 p q

/-! ## The whole product, and the blocks of the three arrays -/

/-- The whole product of the two operand arrays as the region finds them. -/
abbrev whole0 (c : Dev nD) : FVec Ideal S100000x128 .f32 :=
  Host.dotGeneral (F := Ideal) (φ₁ := .f32) (φ₂ := .f32) (DotDims.plain 100000 128 128) none
    (V c (Pipeline.arrRef spec0 0)) (V c (Pipeline.arrRef spec0 1))

/-- One entry of a block of rows against the whole product: when row `p` of the left block `x0` is row `r` of the left
    array `X` and column `q` of the right block `x1` is column `q` of the right array `W`, entry `(p, q)` of what the body
    stores is entry `(r, q)` of the whole product `X · W`: both are `∑ k, X (r, k) * W (k, q)`. -/
theorem pay0_row (X : FVec Ideal S100000x128 .f32) (W : FVec Ideal S128x128 .f32)
    (x0 : Vec Ideal S10000x128 .f32) (x1 : Vec Ideal S128x128 .f32) (p : Fin 10000) (q : Fin 128) (r : Fin 100000)
    (h0 : ∀ k : Fin 128, x0 (ix2 p k) = X (ix2 r k)) (h1 : ∀ k : Fin 128, x1 (ix2 k q) = W (ix2 k q)) :
    k0_pay1 (F := Ideal) x0 x1 (ix2 p q)
      = Host.dotGeneral (F := Ideal) (φ₁ := .f32) (φ₂ := .f32) (DotDims.plain 100000 128 128) none X W (ix2 r q) := by
  rw [pay0_apply]
  refine Eq.trans ?_ (Cert.Lib.PlainDot.dotGeneral_apply (M := 100000) (K := 128) (N := 128) none .single X W r q).symm
  exact Finset.sum_congr rfl fun k _ => by rw [h0 k, h1 k]

/-- The printed index maps over the ten grid points: point `t` takes row block `t` of the left operand and of the result,
    and the one block of the right operand. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Entry `x` of the left operand's block at point `t` is entry `(10000 t + x 0, x 1)` of the left operand array. -/
theorem lhs_blk0_apply (c : Dev nD) (t : Fin cfg0.N) (x : S10000x128.Idx) (i : S100000x128.Idx)
    (h0 : (i 0).val = t.val * 10000 + (x 0).val) (h1 : (i 1).val = (x 1).val) :
    (iblk0 V c 0 t : Vec Ideal S10000x128 .f32) x = (V c (Pipeline.arrRef spec0 0) : S100000x128.Idx → Elt Ideal .f32) i := by
  obtain ⟨e0, e1, -⟩ := idx_facts0 t
  unfold iblk0
  show V c (Pipeline.arrRef spec0 0) (((cfg0.win 0).blk t).view.emb x) = V c (Pipeline.arrRef spec0 0) i
  refine congrArg _ (funext fun a => Fin.ext ?_)
  match a with
  | ⟨0, _⟩ => show win0_0.index t (0 : Fin 2) * 10000 + 1 * (x 0).val = (i 0).val; omega
  | ⟨1, _⟩ => show win0_0.index t (1 : Fin 2) * 128 + 1 * (x 1).val = (i 1).val; omega

/-- The right operand's block at any point is the whole right operand array. -/
theorem rhs_blk0_apply (c : Dev nD) (t : Fin cfg0.N) (x : S128x128.Idx) :
    (iblk0 V c 1 t : Vec Ideal S128x128 .f32) x = (V c (Pipeline.arrRef spec0 1) : S128x128.Idx → Elt Ideal .f32) x := by
  obtain ⟨-, -, e2, e3, -⟩ := idx_facts0 t
  unfold iblk0
  show V c (Pipeline.arrRef spec0 1) (((cfg0.win 1).blk t).view.emb x) = V c (Pipeline.arrRef spec0 1) x
  refine congrArg _ (funext fun a => Fin.ext ?_)
  match a with
  | ⟨0, _⟩ => show win0_1.index t (0 : Fin 2) * 128 + 1 * (x 0).val = (x 0).val; omega
  | ⟨1, _⟩ => show win0_1.index t (1 : Fin 2) * 128 + 1 * (x 1).val = (x 1).val; omega

/-- Entry `(p, q)` of the result's block at point `t` sits at entry `(10000 t + p, q)` of the result array. -/
theorem out_blk0_emb (t : Fin cfg0.N) (p : Fin 10000) (q : Fin 128) (hr : t.val * 10000 + p.val < 100000) :
    ((cfg0.win 2).blk t).view.emb (ix2 p q) = (ix2 (⟨t.val * 10000 + p.val, hr⟩ : Fin 100000) q : S100000x128.Idx) := by
  obtain ⟨-, -, -, -, e4, e5⟩ := idx_facts0 t
  refine funext fun a => Fin.ext ?_
  match a with
  | ⟨0, _⟩ => show win0_2.index t (0 : Fin 2) * 10000 + 1 * p.val = t.val * 10000 + p.val; omega
  | ⟨1, _⟩ => show win0_2.index t (1 : Fin 2) * 128 + 1 * q.val = q.val; omega

/-! ## What a point writes back -/

/-- What point `t` writes back is block `t` of the whole product: a row of the product reads only the same row of the
    left operand, and the rows of the point's left block are the rows of its result block. -/
theorem flushed0_eq (c : Dev nD) (t : Fin cfg0.N) :
    (dat0 (F := Ideal) V c).flushed 2 t = ((cfg0.win 2).blk t).view.read (Elt Ideal) (whole0 V c) := by
  show (cfg0.win 2).cut (grid0.coords t) ((dat0 V c).after 2 t) = _
  rw [after0_2]
  unfold out0_2
  rw [View.canon_unit_zero off_zero0]
  simp only [View.ld_unit_zero (S := S10000x128) off_zero0, View.ld_unit_zero (S := S128x128) off_zero0]
  funext j
  obtain ⟨p, q, rfl⟩ : ∃ (p : Fin 10000) (q : Fin 128), j = ix2 p q := ⟨j 0, j 1, eq_ix2 j⟩
  have hN : cfg0.N = 10 := N_0
  have hr : t.val * 10000 + p.val < 100000 := by have := t.isLt; omega
  show k0_pay1 (F := Ideal) (iblk0 V c 0 t) (iblk0 V c 1 t) (ix2 p q) = whole0 V c (((cfg0.win 2).blk t).view.emb (ix2 p q))
  refine Eq.trans ?_ (congrArg (whole0 V c) (out_blk0_emb t p q hr)).symm
  exact pay0_row (V c (Pipeline.arrRef spec0 0)) (V c (Pipeline.arrRef spec0 1)) (iblk0 V c 0 t) (iblk0 V c 1 t) p q ⟨_, hr⟩
    (fun k => lhs_blk0_apply V c t (ix2 p k) (ix2 ⟨_, hr⟩ k) rfl rfl) (fun k => rhs_blk0_apply V c t (ix2 k q))

/-! ## The row blocks tile the result -/

/-- An entry of the result array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v27).slice (win0_2.rect t)).set ↔ _
  rw [View.set_slice_whole, Rect.mem_set_unit]
  exact Iff.rfl

/-- Row `r` of the result lies in the block of point `r / 10000`, and every point writes its block back. -/
theorem cover0 (i : S100000x128.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 128 := (i 1).isLt
  have ht : (i 0).val / 10000 < cfg0.N := by rw [hN]; omega
  obtain ⟨-, -, -, -, e4, e5⟩ := idx_facts0 ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_blk0]
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; omega
  | ⟨1, _⟩ => show win0_2.index ⟨(i 0).val / 10000, ht⟩ (1 : Fin 2) * 128 ≤ (i 1).val ∧ (i 1).val < win0_2.index ⟨(i 0).val / 10000, ht⟩ (1 : Fin 2) * 128 + 128; omega

/-! ## The result array -/

/-- The result array of region 0 after its ten grid points is the whole product of its two operand arrays. -/
theorem mm0 (c : Dev nD) :
    (dat0 (F := Ideal) V c).arrAt 2 cfg0.N
      = (Host.dotGeneral (F := Ideal) (φ₁ := .f32) (φ₂ := .f32) (DotDims.plain 100000 128 128) none
          (V c (Pipeline.arrRef spec0 0)) (V c (Pipeline.arrRef spec0 1))) :=
  (dat0 (F := Ideal) V c).arrAt_eq_of_cover 2 (whole0 V c) (fun t _ => flushed0_eq V c t) cover0

end Cert.KernelIdeal.Reg

end
-- ==== Proof.RegBA1.lean ====
/-
  Region 1 of the kernel program: a row-blocked bias addition followed by a clamp at zero.

  The region cuts the 100000 rows of the aggregated features into ten blocks of 10000 rows; at every grid point it adds
  the one bias row (a 1×128 array, the same at every point) to each row of the block and takes the maximum with zero.
  Entry (r, q) of the result array after the run is `max (A (r, q) + b (0, q)) 0`: the row blocks tile the result and
  the operation is pointwise in the row.
-/
import proofs.«409801_j72988674228409_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A whole-block access starts at row 0, column 0. -/
theorem ba1_offsets_zero : (![0, 0] : Fin 2 → Nat) = fun _ => 0 :=
  funext fun a => by match a with | ⟨0, _⟩ => rfl | ⟨1, _⟩ => rfl

/-- The body's value at row `p`, column `q` of its block: the block's entry plus the bias row's entry in that column,
    clamped below at the zero word's value. -/
theorem ba1_payload_apply (x0 : Vec Ideal S10000x128 .f32) (x1 : Vec Ideal S1x128 .f32) (p : Fin 10000) (q : Fin 128) :
    k1_pay1 (F := Ideal) x0 x1 (ix2 p q)
      = max (x0 (ix2 p q) + x1 (ix2 (0 : Fin 1) q)) (Scalar.ofBits (F := Ideal) .f32 0x00000000#32) := by
  unfold k1_pay1
  simp only [maximumf_apply, addf_apply, broadcast_apply, shapeCast_self]
  rw [broadcastTo_apply x1 broadcasts_S1x128_S10000x128 (ix2 p q) (ix2 (0 : Fin 1) q) (fun a => by
    match a with
    | ⟨0, _⟩ => rfl
    | ⟨1, _⟩ => rfl)]

/-- The claimed array at row `r`, column `q`, in the same form. -/
theorem ba1_result_apply (A : FVec Ideal S100000x128 .f32) (b : FVec Ideal S1x128 .f32)
    (hrow : S1x128.BroadcastsInDim S100000x128 ![0, 1]) (hzero : S_.BroadcastsInDim S100000x128 (![] : Fin 0 → Fin S100000x128.rank))
    (r : Fin 100000) (q : Fin 128) :
    maximumf (F := Ideal) (addf A (broadcastInDim S100000x128 ![0, 1] hrow b))
        (broadcastInDim S100000x128 ![] hzero (constant (F := Ideal) S_ .f32 0x00000000#32)) (ix2 r q)
      = max (A (ix2 r q) + b (ix2 (0 : Fin 1) q)) (Scalar.ofBits (F := Ideal) .f32 0x00000000#32) := by
  rw [maximumf_apply, addf_apply, broadcastInDim_apply ![0, 1] hrow b (ix2 r q) (ix2 (0 : Fin 1) q) (fun a => by
    match a with
    | ⟨0, _⟩ => rfl
    | ⟨1, _⟩ => rfl)]
  rfl

/-- The index maps over the ten grid points: the feature and result windows are at row block `t`, column block 0; the bias
    window stays at its one block. -/
theorem ba1_index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of the result window's block at point `t` sits at row `10000 t + p`, column `q` of the result array. -/
theorem ba1_result_block_emb (t : Fin cfg1.N) (p : Fin 10000) (q : Fin 128) (hr : t.val * 10000 + p.val < 100000) :
    ((cfg1.win 2).blk t).view.emb (ix2 p q) = ix2 (⟨t.val * 10000 + p.val, hr⟩ : Fin 100000) q := by
  obtain ⟨-, -, -, -, e4, e5⟩ := ba1_index_facts t
  funext a; apply Fin.ext
  match a with
  | ⟨0, _⟩ => show win1_2.index t (0 : Fin 2) * 10000 + 1 * p.val = t.val * 10000 + p.val; rw [e4]; omega
  | ⟨1, _⟩ => show win1_2.index t (1 : Fin 2) * 128 + 1 * q.val = q.val; rw [e5]; omega

/-- Entry (p, q) of the feature window's block at point `t` is the feature array's entry at row `10000 t + p`, column `q`. -/
theorem ba1_features_block_apply (c : Dev nD) (t : Fin cfg1.N) (p : Fin 10000) (q : Fin 128) (hr : t.val * 10000 + p.val < 100000) :
    iblk1 V c 0 t (ix2 p q) = V c (Pipeline.arrRef spec1 0) (ix2 (⟨t.val * 10000 + p.val, hr⟩ : Fin 100000) q) := by
  obtain ⟨e0, e1, -⟩ := ba1_index_facts t
  have hin : ((cfg1.win 0).blk t).view.emb (ix2 p q) = ix2 (⟨t.val * 10000 + p.val, hr⟩ : Fin 100000) q := by
    funext a; apply Fin.ext
    match a with
    | ⟨0, _⟩ => show win1_0.index t (0 : Fin 2) * 10000 + 1 * p.val = t.val * 10000 + p.val; rw [e0]; omega
    | ⟨1, _⟩ => show win1_0.index t (1 : Fin 2) * 128 + 1 * q.val = q.val; rw [e1]; omega
  unfold iblk1; rw [View.read_apply, hin]; rfl

/-- Entry (0, q) of the bias window's block, at every point, is the bias row's entry in column `q`: the block is the whole row. -/
theorem ba1_bias_block_apply (c : Dev nD) (t : Fin cfg1.N) (q : Fin 128) :
    iblk1 V c 1 t (ix2 (0 : Fin 1) q) = V c (Pipeline.arrRef spec1 1) (ix2 (0 : Fin 1) q) := by
  obtain ⟨-, -, e2, e3, -⟩ := ba1_index_facts t
  have hbias : ((cfg1.win 1).blk t).view.emb (ix2 (0 : Fin 1) q) = ix2 (0 : Fin 1) q := by
    funext a; apply Fin.ext
    match a with
    | ⟨0, _⟩ => show win1_1.index t (0 : Fin 2) * 1 + 1 * 0 = 0; rw [e2]
    | ⟨1, _⟩ => show win1_1.index t (1 : Fin 2) * 128 + 1 * q.val = q.val; rw [e3]; omega
  unfold iblk1; rw [View.read_apply, hbias]; rfl

/-- What point `t` writes back is block `t` of the claimed array. -/
theorem ba1_flushed (c : Dev nD) (hrow : S1x128.BroadcastsInDim S100000x128 ![0, 1]) (hzero : S_.BroadcastsInDim S100000x128 (![] : Fin 0 → Fin S100000x128.rank))
    (t : Fin cfg1.N) :
    (dat1 (F := Ideal) V c).flushed 2 t = ((cfg1.win 2).blk t).view.read (Elt Ideal)
      (maximumf (F := Ideal)
          (addf (V c (Pipeline.arrRef spec1 0)) (broadcastInDim S100000x128 ![0, 1] hrow (V c (Pipeline.arrRef spec1 1))))
          (broadcastInDim S100000x128 ![] hzero (constant (F := Ideal) S_ .f32 0x00000000#32))) := by
  show (cfg1.win 2).cut (grid1.coords t) ((dat1 V c).after 2 t) = _
  rw [after1_2]
  unfold out1_2
  rw [View.canon_unit_zero ba1_offsets_zero]
  simp only [View.ld_unit_zero (S := S10000x128) ba1_offsets_zero, View.ld_unit_zero (S := S1x128) ba1_offsets_zero]
  funext j
  obtain ⟨p, q, rfl⟩ : ∃ (p : Fin 10000) (q : Fin 128), j = ix2 p q := ⟨j 0, j 1, eq_ix2 j⟩
  have ht : t.val < 10 := lt_of_lt_of_eq t.isLt N_1
  have hp : p.val < 10000 := p.isLt
  have hr : t.val * 10000 + p.val < 100000 := by omega
  show k1_pay1 (iblk1 V c 0 t) (iblk1 V c 1 t) (ix2 p q) = (maximumf (F := Ideal)
          (addf (V c (Pipeline.arrRef spec1 0)) (broadcastInDim S100000x128 ![0, 1] hrow (V c (Pipeline.arrRef spec1 1))))
          (broadcastInDim S100000x128 ![] hzero (constant (F := Ideal) S_ .f32 0x00000000#32))) (((cfg1.win 2).blk t).view.emb (ix2 p q))
  rw [ba1_result_block_emb t p q hr]
  refine (ba1_payload_apply (iblk1 V c 0 t) (iblk1 V c 1 t) p q).trans ?_
  refine Eq.trans ?_ (ba1_result_apply (V c (Pipeline.arrRef spec1 0)) (V c (Pipeline.arrRef spec1 1)) hrow hzero ⟨t.val * 10000 + p.val, hr⟩ q).symm
  rw [ba1_features_block_apply V c t p q hr, ba1_bias_block_apply V c t q]

/-- An index of the result array is in point `t`'s block iff each coordinate is in the block's range on its axis. -/
theorem ba1_mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v36).slice (win1_2.rect t)).set ↔ _
  rw [View.set_slice_whole, Rect.mem_set_unit]
  exact Iff.rfl

/-- The ten row blocks tile the result array: row `r` lies in the block of point `r / 10000`, and every point writes back. -/
theorem ba1_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 10000 < cfg1.N := by rw [show cfg1.N = 10 from N_1]; omega
  obtain ⟨-, -, -, -, e4, e5⟩ := ba1_index_facts ⟨(i 0).val / 10000, hlt⟩
  refine ⟨⟨(i 0).val / 10000, hlt⟩, flush1_2 _, ?_⟩
  rw [ba1_mem_block]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 128 ≤ (i 1).val ∧ (i 1).val < win1_2.index ⟨(i 0).val / 10000, hlt⟩ (1 : Fin 2) * 128 + 128
    rw [e5]; omega

/-- The result array of region 1 after its ten grid points: the bias row added to every row, clamped below at zero. -/
theorem ba1 (c : Dev nD) (hrow : S1x128.BroadcastsInDim S100000x128 ![0, 1]) (hzero : S_.BroadcastsInDim S100000x128 (![] : Fin 0 → Fin S100000x128.rank)) :
    (dat1 (F := Ideal) V c).arrAt 2 cfg1.N
      = maximumf (F := Ideal)
          (addf (V c (Pipeline.arrRef spec1 0)) (broadcastInDim S100000x128 ![0, 1] hrow (V c (Pipeline.arrRef spec1 1))))
          (broadcastInDim S100000x128 ![] hzero (constant (F := Ideal) S_ .f32 0x00000000#32)) :=
  (dat1 (F := Ideal) V c).arrAt_eq_of_cover 2 _ (fun t _ => ba1_flushed V c hrow hzero t) ba1_cover

end Cert.KernelIdeal.Reg

end
-- ==== Proof.RegMM2.lean ====
/-
  Region 2 of the kernel program: a row-blocked matrix product.

  The region cuts the 100000 rows of its left operand into ten blocks of 10000 rows; at every grid point it multiplies
  that block by the whole 128×128 right operand into a zero accumulator and writes the product back as the same
  block of rows of the result. Read over the extended reals, entry (r, q) of the result array after the run is
  `∑ k, X (r, k) * W (k, q)`, which is the whole product of the two arrays as the region finds them: the row blocks tile
  the result, and a row of the product depends only on the same row of the left operand.
-/
import proofs.«409801_j72988674228409_1_alg».proof.Proof.Gen.KernelIdeal.Frame
import proofs.«409801_j72988674228409_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's payload at an entry -/

/-- The block offsets of the body's loads and store are zero on both axes. -/
theorem off_zero2 : (![0, 0] : Fin 2 → Nat) = fun _ => 0 := funext fun a => by fin_cases a <;> rfl

/-- The dimension numbers of the body's product are those of a plain 10000×128 by 128×128 product. -/
theorem dot2_eq : dot_S10000x128_S128x128_S10000x128_1_0_0_1_n_n = DotDims.plain 10000 128 128 := rfl

/-- Over the extended reals a change of float format is the identity, so entry `(p, q)` of what the body stores is
    `∑ k, x0 (p, k) * x1 (k, q)` of the two blocks it loaded: the accumulator is zero. -/
theorem pay2_apply (x0 : Vec Ideal S10000x128 .f32) (x1 : Vec Ideal S128x128 .f32) (p : Fin 10000) (q : Fin 128) :
    k2_pay1 (F := Ideal) x0 x1 (ix2 p q) = ∑ k : Fin 128, x0 (ix2 p k) * x1 (ix2 k q) := by
  unfold k2_pay1
  simp only [shapeCast_self, dot2_eq]
  exact Cert.Lib.PlainDot.matmul_zero_apply (M := 10000) (K := 128) (N := 128) (φ₁ := .bf16) (φ₂ := .bf16) none x0 x1 p q

/-! ## The whole product, and the blocks of the three arrays -/

/-- The whole product of the two operand arrays as the region finds them. -/
abbrev whole2 (c : Dev nD) : FVec Ideal S100000x128 .f32 :=
  Host.dotGeneral (F := Ideal) (φ₁ := .f32) (φ₂ := .f32) (DotDims.plain 100000 128 128) none
    (V c (Pipeline.arrRef spec2 0)) (V c (Pipeline.arrRef spec2 1))

/-- One entry of a block of rows against the whole product: when row `p` of the left block `x0` is row `r` of the left
    array `X` and column `q` of the right block `x1` is column `q` of the right array `W`, entry `(p, q)` of what the body
    stores is entry `(r, q)` of the whole product `X · W`: both are `∑ k, X (r, k) * W (k, q)`. -/
theorem pay2_row (X : FVec Ideal S100000x128 .f32) (W : FVec Ideal S128x128 .f32)
    (x0 : Vec Ideal S10000x128 .f32) (x1 : Vec Ideal S128x128 .f32) (p : Fin 10000) (q : Fin 128) (r : Fin 100000)
    (h0 : ∀ k : Fin 128, x0 (ix2 p k) = X (ix2 r k)) (h1 : ∀ k : Fin 128, x1 (ix2 k q) = W (ix2 k q)) :
    k2_pay1 (F := Ideal) x0 x1 (ix2 p q)
      = Host.dotGeneral (F := Ideal) (φ₁ := .f32) (φ₂ := .f32) (DotDims.plain 100000 128 128) none X W (ix2 r q) := by
  rw [pay2_apply]
  refine Eq.trans ?_ (Cert.Lib.PlainDot.dotGeneral_apply (M := 100000) (K := 128) (N := 128) none .single X W r q).symm
  exact Finset.sum_congr rfl fun k _ => by rw [h0 k, h1 k]

/-- The printed index maps over the ten grid points: point `t` takes row block `t` of the left operand and of the result,
    and the one block of the right operand. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Entry `x` of the left operand's block at point `t` is entry `(10000 t + x 0, x 1)` of the left operand array. -/
theorem lhs_blk2_apply (c : Dev nD) (t : Fin cfg2.N) (x : S10000x128.Idx) (i : S100000x128.Idx)
    (h0 : (i 0).val = t.val * 10000 + (x 0).val) (h1 : (i 1).val = (x 1).val) :
    (iblk2 V c 0 t : Vec Ideal S10000x128 .f32) x = (V c (Pipeline.arrRef spec2 0) : S100000x128.Idx → Elt Ideal .f32) i := by
  obtain ⟨e0, e1, -⟩ := idx_facts2 t
  unfold iblk2
  show V c (Pipeline.arrRef spec2 0) (((cfg2.win 0).blk t).view.emb x) = V c (Pipeline.arrRef spec2 0) i
  refine congrArg _ (funext fun a => Fin.ext ?_)
  match a with
  | ⟨0, _⟩ => show win2_0.index t (0 : Fin 2) * 10000 + 1 * (x 0).val = (i 0).val; omega
  | ⟨1, _⟩ => show win2_0.index t (1 : Fin 2) * 128 + 1 * (x 1).val = (i 1).val; omega

/-- The right operand's block at any point is the whole right operand array. -/
theorem rhs_blk2_apply (c : Dev nD) (t : Fin cfg2.N) (x : S128x128.Idx) :
    (iblk2 V c 1 t : Vec Ideal S128x128 .f32) x = (V c (Pipeline.arrRef spec2 1) : S128x128.Idx → Elt Ideal .f32) x := by
  obtain ⟨-, -, e2, e3, -⟩ := idx_facts2 t
  unfold iblk2
  show V c (Pipeline.arrRef spec2 1) (((cfg2.win 1).blk t).view.emb x) = V c (Pipeline.arrRef spec2 1) x
  refine congrArg _ (funext fun a => Fin.ext ?_)
  match a with
  | ⟨0, _⟩ => show win2_1.index t (0 : Fin 2) * 128 + 1 * (x 0).val = (x 0).val; omega
  | ⟨1, _⟩ => show win2_1.index t (1 : Fin 2) * 128 + 1 * (x 1).val = (x 1).val; omega

/-- Entry `(p, q)` of the result's block at point `t` sits at entry `(10000 t + p, q)` of the result array. -/
theorem out_blk2_emb (t : Fin cfg2.N) (p : Fin 10000) (q : Fin 128) (hr : t.val * 10000 + p.val < 100000) :
    ((cfg2.win 2).blk t).view.emb (ix2 p q) = (ix2 (⟨t.val * 10000 + p.val, hr⟩ : Fin 100000) q : S100000x128.Idx) := by
  obtain ⟨-, -, -, -, e4, e5⟩ := idx_facts2 t
  refine funext fun a => Fin.ext ?_
  match a with
  | ⟨0, _⟩ => show win2_2.index t (0 : Fin 2) * 10000 + 1 * p.val = t.val * 10000 + p.val; omega
  | ⟨1, _⟩ => show win2_2.index t (1 : Fin 2) * 128 + 1 * q.val = q.val; omega

/-! ## What a point writes back -/

/-- What point `t` writes back is block `t` of the whole product: a row of the product reads only the same row of the
    left operand, and the rows of the point's left block are the rows of its result block. -/
theorem flushed2_eq (c : Dev nD) (t : Fin cfg2.N) :
    (dat2 (F := Ideal) V c).flushed 2 t = ((cfg2.win 2).blk t).view.read (Elt Ideal) (whole2 V c) := by
  show (cfg2.win 2).cut (grid2.coords t) ((dat2 V c).after 2 t) = _
  rw [after2_2]
  unfold out2_2
  rw [View.canon_unit_zero off_zero2]
  simp only [View.ld_unit_zero (S := S10000x128) off_zero2, View.ld_unit_zero (S := S128x128) off_zero2]
  funext j
  obtain ⟨p, q, rfl⟩ : ∃ (p : Fin 10000) (q : Fin 128), j = ix2 p q := ⟨j 0, j 1, eq_ix2 j⟩
  have hN : cfg2.N = 10 := N_2
  have hr : t.val * 10000 + p.val < 100000 := by have := t.isLt; omega
  show k2_pay1 (F := Ideal) (iblk2 V c 0 t) (iblk2 V c 1 t) (ix2 p q) = whole2 V c (((cfg2.win 2).blk t).view.emb (ix2 p q))
  refine Eq.trans ?_ (congrArg (whole2 V c) (out_blk2_emb t p q hr)).symm
  exact pay2_row (V c (Pipeline.arrRef spec2 0)) (V c (Pipeline.arrRef spec2 1)) (iblk2 V c 0 t) (iblk2 V c 1 t) p q ⟨_, hr⟩
    (fun k => lhs_blk2_apply V c t (ix2 p k) (ix2 ⟨_, hr⟩ k) rfl rfl) (fun k => rhs_blk2_apply V c t (ix2 k q))

/-! ## The row blocks tile the result -/

/-- An entry of the result array is in point `t`'s block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v37).slice (win2_2.rect t)).set ↔ _
  rw [View.set_slice_whole, Rect.mem_set_unit]
  exact Iff.rfl

/-- Row `r` of the result lies in the block of point `r / 10000`, and every point writes its block back. -/
theorem cover2 (i : S100000x128.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 128 := (i 1).isLt
  have ht : (i 0).val / 10000 < cfg2.N := by rw [hN]; omega
  obtain ⟨-, -, -, -, e4, e5⟩ := idx_facts2 ⟨(i 0).val / 10000, ht⟩
  have e4' : win2_2.index ⟨(i 0).val / 10000, ht⟩ (0 : Fin 2) = (i 0).val / 10000 := e4
  refine ⟨⟨(i 0).val / 10000, ht⟩, flush2_2 _, ?_⟩
  rw [mem_blk2]
  intro a
  match a with
  | ⟨0, _⟩ => show win2_2.index ⟨(i 0).val / 10000, ht⟩ (0 : Fin 2) * 10000 ≤ (i 0).val ∧ (i 0).val < win2_2.index ⟨(i 0).val / 10000, ht⟩ (0 : Fin 2) * 10000 + 10000; omega
  | ⟨1, _⟩ => show win2_2.index ⟨(i 0).val / 10000, ht⟩ (1 : Fin 2) * 128 ≤ (i 1).val ∧ (i 1).val < win2_2.index ⟨(i 0).val / 10000, ht⟩ (1 : Fin 2) * 128 + 128; omega

/-! ## The result array -/

/-- The result array of region 2 after its ten grid points is the whole product of its two operand arrays. -/
theorem mm2 (c : Dev nD) :
    (dat2 (F := Ideal) V c).arrAt 2 cfg2.N
      = (Host.dotGeneral (F := Ideal) (φ₁ := .f32) (φ₂ := .f32) (DotDims.plain 100000 128 128) none
          (V c (Pipeline.arrRef spec2 0)) (V c (Pipeline.arrRef spec2 1))) :=
  (dat2 (F := Ideal) V c).arrAt_eq_of_cover 2 (whole2 V c) (fun t _ => flushed2_eq V c t) cover2

end Cert.KernelIdeal.Reg

end
-- ==== Proof.RegBA3.lean ====
/-
  Region 3 of the kernel program: a row-blocked bias addition followed by a clamp at zero.

  The region cuts the 100000 rows of the aggregated features into ten blocks of 10000 rows; at every grid point it adds
  the one bias row (a 1×128 array, the same at every point) to each row of the block and takes the maximum with zero.
  Entry (r, q) of the result array after the run is `max (A (r, q) + b (0, q)) 0`: the row blocks tile the result and
  the operation is pointwise in the row.
-/
import proofs.«409801_j72988674228409_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A whole-block access starts at row 0, column 0. -/
theorem ba3_offsets_zero : (![0, 0] : Fin 2 → Nat) = fun _ => 0 :=
  funext fun a => by match a with | ⟨0, _⟩ => rfl | ⟨1, _⟩ => rfl

/-- The body's value at row `p`, column `q` of its block: the block's entry plus the bias row's entry in that column,
    clamped below at the zero word's value. -/
theorem ba3_payload_apply (x0 : Vec Ideal S10000x128 .f32) (x1 : Vec Ideal S1x128 .f32) (p : Fin 10000) (q : Fin 128) :
    k3_pay1 (F := Ideal) x0 x1 (ix2 p q)
      = max (x0 (ix2 p q) + x1 (ix2 (0 : Fin 1) q)) (Scalar.ofBits (F := Ideal) .f32 0x00000000#32) := by
  unfold k3_pay1
  simp only [maximumf_apply, addf_apply, broadcast_apply, shapeCast_self]
  rw [broadcastTo_apply x1 broadcasts_S1x128_S10000x128 (ix2 p q) (ix2 (0 : Fin 1) q) (fun a => by
    match a with
    | ⟨0, _⟩ => rfl
    | ⟨1, _⟩ => rfl)]

/-- The claimed array at row `r`, column `q`, in the same form. -/
theorem ba3_result_apply (A : FVec Ideal S100000x128 .f32) (b : FVec Ideal S1x128 .f32)
    (hrow : S1x128.BroadcastsInDim S100000x128 ![0, 1]) (hzero : S_.BroadcastsInDim S100000x128 (![] : Fin 0 → Fin S100000x128.rank))
    (r : Fin 100000) (q : Fin 128) :
    maximumf (F := Ideal) (addf A (broadcastInDim S100000x128 ![0, 1] hrow b))
        (broadcastInDim S100000x128 ![] hzero (constant (F := Ideal) S_ .f32 0x00000000#32)) (ix2 r q)
      = max (A (ix2 r q) + b (ix2 (0 : Fin 1) q)) (Scalar.ofBits (F := Ideal) .f32 0x00000000#32) := by
  rw [maximumf_apply, addf_apply, broadcastInDim_apply ![0, 1] hrow b (ix2 r q) (ix2 (0 : Fin 1) q) (fun a => by
    match a with
    | ⟨0, _⟩ => rfl
    | ⟨1, _⟩ => rfl)]
  rfl

/-- The index maps over the ten grid points: the feature and result windows are at row block `t`, column block 0; the bias
    window stays at its one block. -/
theorem ba3_index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of the result window's block at point `t` sits at row `10000 t + p`, column `q` of the result array. -/
theorem ba3_result_block_emb (t : Fin cfg3.N) (p : Fin 10000) (q : Fin 128) (hr : t.val * 10000 + p.val < 100000) :
    ((cfg3.win 2).blk t).view.emb (ix2 p q) = ix2 (⟨t.val * 10000 + p.val, hr⟩ : Fin 100000) q := by
  obtain ⟨-, -, -, -, e4, e5⟩ := ba3_index_facts t
  funext a; apply Fin.ext
  match a with
  | ⟨0, _⟩ => show win3_2.index t (0 : Fin 2) * 10000 + 1 * p.val = t.val * 10000 + p.val; rw [e4]; omega
  | ⟨1, _⟩ => show win3_2.index t (1 : Fin 2) * 128 + 1 * q.val = q.val; rw [e5]; omega

/-- Entry (p, q) of the feature window's block at point `t` is the feature array's entry at row `10000 t + p`, column `q`. -/
theorem ba3_features_block_apply (c : Dev nD) (t : Fin cfg3.N) (p : Fin 10000) (q : Fin 128) (hr : t.val * 10000 + p.val < 100000) :
    iblk3 V c 0 t (ix2 p q) = V c (Pipeline.arrRef spec3 0) (ix2 (⟨t.val * 10000 + p.val, hr⟩ : Fin 100000) q) := by
  obtain ⟨e0, e1, -⟩ := ba3_index_facts t
  have hin : ((cfg3.win 0).blk t).view.emb (ix2 p q) = ix2 (⟨t.val * 10000 + p.val, hr⟩ : Fin 100000) q := by
    funext a; apply Fin.ext
    match a with
    | ⟨0, _⟩ => show win3_0.index t (0 : Fin 2) * 10000 + 1 * p.val = t.val * 10000 + p.val; rw [e0]; omega
    | ⟨1, _⟩ => show win3_0.index t (1 : Fin 2) * 128 + 1 * q.val = q.val; rw [e1]; omega
  unfold iblk3; rw [View.read_apply, hin]; rfl

/-- Entry (0, q) of the bias window's block, at every point, is the bias row's entry in column `q`: the block is the whole row. -/
theorem ba3_bias_block_apply (c : Dev nD) (t : Fin cfg3.N) (q : Fin 128) :
    iblk3 V c 1 t (ix2 (0 : Fin 1) q) = V c (Pipeline.arrRef spec3 1) (ix2 (0 : Fin 1) q) := by
  obtain ⟨-, -, e2, e3, -⟩ := ba3_index_facts t
  have hbias : ((cfg3.win 1).blk t).view.emb (ix2 (0 : Fin 1) q) = ix2 (0 : Fin 1) q := by
    funext a; apply Fin.ext
    match a with
    | ⟨0, _⟩ => show win3_1.index t (0 : Fin 2) * 1 + 1 * 0 = 0; rw [e2]
    | ⟨1, _⟩ => show win3_1.index t (1 : Fin 2) * 128 + 1 * q.val = q.val; rw [e3]; omega
  unfold iblk3; rw [View.read_apply, hbias]; rfl

/-- What point `t` writes back is block `t` of the claimed array. -/
theorem ba3_flushed (c : Dev nD) (hrow : S1x128.BroadcastsInDim S100000x128 ![0, 1]) (hzero : S_.BroadcastsInDim S100000x128 (![] : Fin 0 → Fin S100000x128.rank))
    (t : Fin cfg3.N) :
    (dat3 (F := Ideal) V c).flushed 2 t = ((cfg3.win 2).blk t).view.read (Elt Ideal)
      (maximumf (F := Ideal)
          (addf (V c (Pipeline.arrRef spec3 0)) (broadcastInDim S100000x128 ![0, 1] hrow (V c (Pipeline.arrRef spec3 1))))
          (broadcastInDim S100000x128 ![] hzero (constant (F := Ideal) S_ .f32 0x00000000#32))) := by
  show (cfg3.win 2).cut (grid3.coords t) ((dat3 V c).after 2 t) = _
  rw [after3_2]
  unfold out3_2
  rw [View.canon_unit_zero ba3_offsets_zero]
  simp only [View.ld_unit_zero (S := S10000x128) ba3_offsets_zero, View.ld_unit_zero (S := S1x128) ba3_offsets_zero]
  funext j
  obtain ⟨p, q, rfl⟩ : ∃ (p : Fin 10000) (q : Fin 128), j = ix2 p q := ⟨j 0, j 1, eq_ix2 j⟩
  have ht : t.val < 10 := lt_of_lt_of_eq t.isLt N_3
  have hp : p.val < 10000 := p.isLt
  have hr : t.val * 10000 + p.val < 100000 := by omega
  show k3_pay1 (iblk3 V c 0 t) (iblk3 V c 1 t) (ix2 p q) = (maximumf (F := Ideal)
          (addf (V c (Pipeline.arrRef spec3 0)) (broadcastInDim S100000x128 ![0, 1] hrow (V c (Pipeline.arrRef spec3 1))))
          (broadcastInDim S100000x128 ![] hzero (constant (F := Ideal) S_ .f32 0x00000000#32))) (((cfg3.win 2).blk t).view.emb (ix2 p q))
  rw [ba3_result_block_emb t p q hr]
  refine (ba3_payload_apply (iblk3 V c 0 t) (iblk3 V c 1 t) p q).trans ?_
  refine Eq.trans ?_ (ba3_result_apply (V c (Pipeline.arrRef spec3 0)) (V c (Pipeline.arrRef spec3 1)) hrow hzero ⟨t.val * 10000 + p.val, hr⟩ q).symm
  rw [ba3_features_block_apply V c t p q hr, ba3_bias_block_apply V c t q]

/-- An index of the result array is in point `t`'s block iff each coordinate is in the block's range on its axis. -/
theorem ba3_mem_block (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v46).slice (win3_2.rect t)).set ↔ _
  rw [View.set_slice_whole, Rect.mem_set_unit]
  exact Iff.rfl

/-- The ten row blocks tile the result array: row `r` lies in the block of point `r / 10000`, and every point writes back. -/
theorem ba3_cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 10000 < cfg3.N := by rw [show cfg3.N = 10 from N_3]; omega
  obtain ⟨-, -, -, -, e4, e5⟩ := ba3_index_facts ⟨(i 0).val / 10000, hlt⟩
  refine ⟨⟨(i 0).val / 10000, hlt⟩, flush3_2 _, ?_⟩
  rw [ba3_mem_block]
  intro a
  match a with
  | ⟨0, _⟩ =>
    show win3_2.index ⟨(i 0).val / 10000, hlt⟩ (0 : Fin 2) * 10000 ≤ (i 0).val ∧ (i 0).val < win3_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, hlt⟩ (1 : Fin 2) * 128 ≤ (i 1).val ∧ (i 1).val < win3_2.index ⟨(i 0).val / 10000, hlt⟩ (1 : Fin 2) * 128 + 128
    rw [e5]; omega

/-- The result array of region 3 after its ten grid points: the bias row added to every row, clamped below at zero. -/
theorem ba3 (c : Dev nD) (hrow : S1x128.BroadcastsInDim S100000x128 ![0, 1]) (hzero : S_.BroadcastsInDim S100000x128 (![] : Fin 0 → Fin S100000x128.rank)) :
    (dat3 (F := Ideal) V c).arrAt 2 cfg3.N
      = maximumf (F := Ideal)
          (addf (V c (Pipeline.arrRef spec3 0)) (broadcastInDim S100000x128 ![0, 1] hrow (V c (Pipeline.arrRef spec3 1))))
          (broadcastInDim S100000x128 ![] hzero (constant (F := Ideal) S_ .f32 0x00000000#32)) :=
  (dat3 (F := Ideal) V c).arrAt_eq_of_cover 2 _ (fun t _ => ba3_flushed V c hrow hzero t) ba3_cover

end Cert.KernelIdeal.Reg

end
-- ==== Proof.RegMM4.lean ====
/-
  Region 4 of the kernel program: a row-blocked matrix product.

  The region cuts the 100000 rows of its left operand into ten blocks of 10000 rows; at every grid point it multiplies
  that block by the whole 128×64 right operand into a zero accumulator and writes the product back as the same
  block of rows of the result. Read over the extended reals, entry (r, q) of the result array after the run is
  `∑ k, X (r, k) * W (k, q)`, which is the whole product of the two arrays as the region finds them: the row blocks tile
  the result, and a row of the product depends only on the same row of the left operand.
-/
import proofs.«409801_j72988674228409_1_alg».proof.Proof.Gen.KernelIdeal.Frame
import proofs.«409801_j72988674228409_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's payload at an entry -/

/-- The block offsets of the body's loads and store are zero on both axes. -/
theorem off_zero4 : (![0, 0] : Fin 2 → Nat) = fun _ => 0 := funext fun a => by fin_cases a <;> rfl

/-- The dimension numbers of the body's product are those of a plain 10000×128 by 128×64 product. -/
theorem dot4_eq : dot_S10000x128_S128x64_S10000x64_1_0_0_1_n_n = DotDims.plain 10000 128 64 := rfl

/-- Over the extended reals a change of float format is the identity, so entry `(p, q)` of what the body stores is
    `∑ k, x0 (p, k) * x1 (k, q)` of the two blocks it loaded: the accumulator is zero. -/
theorem pay4_apply (x0 : Vec Ideal S10000x128 .f32) (x1 : Vec Ideal S128x64 .f32) (p : Fin 10000) (q : Fin 64) :
    k4_pay1 (F := Ideal) x0 x1 (ix2 p q) = ∑ k : Fin 128, x0 (ix2 p k) * x1 (ix2 k q) := by
  unfold k4_pay1
  simp only [shapeCast_self, dot4_eq]
  exact Cert.Lib.PlainDot.matmul_zero_apply (M := 10000) (K := 128) (N := 64) (φ₁ := .bf16) (φ₂ := .bf16) none x0 x1 p q

/-! ## The whole product, and the blocks of the three arrays -/

/-- The whole product of the two operand arrays as the region finds them. -/
abbrev whole4 (c : Dev nD) : FVec Ideal S100000x64 .f32 :=
  Host.dotGeneral (F := Ideal) (φ₁ := .f32) (φ₂ := .f32) (DotDims.plain 100000 128 64) none
    (V c (Pipeline.arrRef spec4 0)) (V c (Pipeline.arrRef spec4 1))

/-- One entry of a block of rows against the whole product: when row `p` of the left block `x0` is row `r` of the left
    array `X` and column `q` of the right block `x1` is column `q` of the right array `W`, entry `(p, q)` of what the body
    stores is entry `(r, q)` of the whole product `X · W`: both are `∑ k, X (r, k) * W (k, q)`. -/
theorem pay4_row (X : FVec Ideal S100000x128 .f32) (W : FVec Ideal S128x64 .f32)
    (x0 : Vec Ideal S10000x128 .f32) (x1 : Vec Ideal S128x64 .f32) (p : Fin 10000) (q : Fin 64) (r : Fin 100000)
    (h0 : ∀ k : Fin 128, x0 (ix2 p k) = X (ix2 r k)) (h1 : ∀ k : Fin 128, x1 (ix2 k q) = W (ix2 k q)) :
    k4_pay1 (F := Ideal) x0 x1 (ix2 p q)
      = Host.dotGeneral (F := Ideal) (φ₁ := .f32) (φ₂ := .f32) (DotDims.plain 100000 128 64) none X W (ix2 r q) := by
  rw [pay4_apply]
  refine Eq.trans ?_ (Cert.Lib.PlainDot.dotGeneral_apply (M := 100000) (K := 128) (N := 64) none .single X W r q).symm
  exact Finset.sum_congr rfl fun k _ => by rw [h0 k, h1 k]

/-- The printed index maps over the ten grid points: point `t` takes row block `t` of the left operand and of the result,
    and the one block of the right operand. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- Entry `x` of the left operand's block at point `t` is entry `(10000 t + x 0, x 1)` of the left operand array. -/
theorem lhs_blk4_apply (c : Dev nD) (t : Fin cfg4.N) (x : S10000x128.Idx) (i : S100000x128.Idx)
    (h0 : (i 0).val = t.val * 10000 + (x 0).val) (h1 : (i 1).val = (x 1).val) :
    (iblk4 V c 0 t : Vec Ideal S10000x128 .f32) x = (V c (Pipeline.arrRef spec4 0) : S100000x128.Idx → Elt Ideal .f32) i := by
  obtain ⟨e0, e1, -⟩ := idx_facts4 t
  unfold iblk4
  show V c (Pipeline.arrRef spec4 0) (((cfg4.win 0).blk t).view.emb x) = V c (Pipeline.arrRef spec4 0) i
  refine congrArg _ (funext fun a => Fin.ext ?_)
  match a with
  | ⟨0, _⟩ => show win4_0.index t (0 : Fin 2) * 10000 + 1 * (x 0).val = (i 0).val; omega
  | ⟨1, _⟩ => show win4_0.index t (1 : Fin 2) * 128 + 1 * (x 1).val = (i 1).val; omega

/-- The right operand's block at any point is the whole right operand array. -/
theorem rhs_blk4_apply (c : Dev nD) (t : Fin cfg4.N) (x : S128x64.Idx) :
    (iblk4 V c 1 t : Vec Ideal S128x64 .f32) x = (V c (Pipeline.arrRef spec4 1) : S128x64.Idx → Elt Ideal .f32) x := by
  obtain ⟨-, -, e2, e3, -⟩ := idx_facts4 t
  unfold iblk4
  show V c (Pipeline.arrRef spec4 1) (((cfg4.win 1).blk t).view.emb x) = V c (Pipeline.arrRef spec4 1) x
  refine congrArg _ (funext fun a => Fin.ext ?_)
  match a with
  | ⟨0, _⟩ => show win4_1.index t (0 : Fin 2) * 128 + 1 * (x 0).val = (x 0).val; omega
  | ⟨1, _⟩ => show win4_1.index t (1 : Fin 2) * 64 + 1 * (x 1).val = (x 1).val; omega

/-- Entry `(p, q)` of the result's block at point `t` sits at entry `(10000 t + p, q)` of the result array. -/
theorem out_blk4_emb (t : Fin cfg4.N) (p : Fin 10000) (q : Fin 64) (hr : t.val * 10000 + p.val < 100000) :
    ((cfg4.win 2).blk t).view.emb (ix2 p q) = (ix2 (⟨t.val * 10000 + p.val, hr⟩ : Fin 100000) q : S100000x64.Idx) := by
  obtain ⟨-, -, -, -, e4, e5⟩ := idx_facts4 t
  refine funext fun a => Fin.ext ?_
  match a with
  | ⟨0, _⟩ => show win4_2.index t (0 : Fin 2) * 10000 + 1 * p.val = t.val * 10000 + p.val; omega
  | ⟨1, _⟩ => show win4_2.index t (1 : Fin 2) * 64 + 1 * q.val = q.val; omega

/-! ## What a point writes back -/

/-- What point `t` writes back is block `t` of the whole product: a row of the product reads only the same row of the
    left operand, and the rows of the point's left block are the rows of its result block. -/
theorem flushed4_eq (c : Dev nD) (t : Fin cfg4.N) :
    (dat4 (F := Ideal) V c).flushed 2 t = ((cfg4.win 2).blk t).view.read (Elt Ideal) (whole4 V c) := by
  show (cfg4.win 2).cut (grid4.coords t) ((dat4 V c).after 2 t) = _
  rw [after4_2]
  unfold out4_2
  rw [View.canon_unit_zero off_zero4]
  simp only [View.ld_unit_zero (S := S10000x128) off_zero4, View.ld_unit_zero (S := S128x64) off_zero4]
  funext j
  obtain ⟨p, q, rfl⟩ : ∃ (p : Fin 10000) (q : Fin 64), j = ix2 p q := ⟨j 0, j 1, eq_ix2 j⟩
  have hN : cfg4.N = 10 := N_4
  have hr : t.val * 10000 + p.val < 100000 := by have := t.isLt; omega
  show k4_pay1 (F := Ideal) (iblk4 V c 0 t) (iblk4 V c 1 t) (ix2 p q) = whole4 V c (((cfg4.win 2).blk t).view.emb (ix2 p q))
  refine Eq.trans ?_ (congrArg (whole4 V c) (out_blk4_emb t p q hr)).symm
  exact pay4_row (V c (Pipeline.arrRef spec4 0)) (V c (Pipeline.arrRef spec4 1)) (iblk4 V c 0 t) (iblk4 V c 1 t) p q ⟨_, hr⟩
    (fun k => lhs_blk4_apply V c t (ix2 p k) (ix2 ⟨_, hr⟩ k) rfl rfl) (fun k => rhs_blk4_apply V c t (ix2 k q))

/-! ## The row blocks tile the result -/

/-- An entry of the result array is in point `t`'s block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v47).slice (win4_2.rect t)).set ↔ _
  rw [View.set_slice_whole, Rect.mem_set_unit]
  exact Iff.rfl

/-- Row `r` of the result lies in the block of point `r / 10000`, and every point writes its block back. -/
theorem cover4 (i : S100000x64.Idx) :
    ∃ t : Fin cfg4.N, (cfg4.win 2).flush t = true ∧ i ∈ ((cfg4.win 2).blk t).view.set := by
  have hN : cfg4.N = 10 := N_4
  have hi0 : (i 0).val < 100000 := (i 0).isLt
  have hi1 : (i 1).val < 64 := (i 1).isLt
  have ht : (i 0).val / 10000 < cfg4.N := by rw [hN]; omega
  obtain ⟨-, -, -, -, e4, e5⟩ := idx_facts4 ⟨(i 0).val / 10000, ht⟩
  have e4' : win4_2.index ⟨(i 0).val / 10000, ht⟩ (0 : Fin 2) = (i 0).val / 10000 := e4
  refine ⟨⟨(i 0).val / 10000, ht⟩, flush4_2 _, ?_⟩
  rw [mem_blk4]
  intro a
  match a with
  | ⟨0, _⟩ => show win4_2.index ⟨(i 0).val / 10000, ht⟩ (0 : Fin 2) * 10000 ≤ (i 0).val ∧ (i 0).val < win4_2.index ⟨(i 0).val / 10000, ht⟩ (0 : Fin 2) * 10000 + 10000; omega
  | ⟨1, _⟩ => show win4_2.index ⟨(i 0).val / 10000, ht⟩ (1 : Fin 2) * 64 ≤ (i 1).val ∧ (i 1).val < win4_2.index ⟨(i 0).val / 10000, ht⟩ (1 : Fin 2) * 64 + 64; omega

/-! ## The result array -/

/-- The result array of region 4 after its ten grid points is the whole product of its two operand arrays. -/
theorem mm4 (c : Dev nD) :
    (dat4 (F := Ideal) V c).arrAt 2 cfg4.N
      = (Host.dotGeneral (F := Ideal) (φ₁ := .f32) (φ₂ := .f32) (DotDims.plain 100000 128 64) none
          (V c (Pipeline.arrRef spec4 0)) (V c (Pipeline.arrRef spec4 1))) :=
  (dat4 (F := Ideal) V c).arrAt_eq_of_cover 2 (whole4 V c) (fun t _ => flushed4_eq V c t) cover4

end Cert.KernelIdeal.Reg

end
-- ==== Proof.RegBA5.lean ====
/-
  Region 5 of the kernel program: a row-blocked bias addition.

  The region cuts the 100000 rows of the aggregated features into ten blocks of 10000 rows; at every grid point it adds
  the one bias row (a 1×64 array, the same at every point) to each row of the block.
  Entry (r, q) of the result array after the run is `A (r, q) + b (0, q)`: the row blocks tile the result and
  the operation is pointwise in the row.
-/
import proofs.«409801_j72988674228409_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A whole-block access starts at row 0, column 0. -/
theorem ba5_offsets_zero : (![0, 0] : Fin 2 → Nat) = fun _ => 0 :=
  funext fun a => by match a with | ⟨0, _⟩ => rfl | ⟨1, _⟩ => rfl

/-- The body's value at row `p`, column `q` of its block: the block's entry plus the bias row's entry in that column. -/
theorem ba5_payload_apply (x0 : Vec Ideal S10000x64 .f32) (x1 : Vec Ideal S1x64 .f32) (p : Fin 10000) (q : Fin 64) :
    k5_pay1 (F := Ideal) x0 x1 (ix2 p q) = x0 (ix2 p q) + x1 (ix2 (0 : Fin 1) q) := by
  unfold k5_pay1
  simp only [addf_apply, shapeCast_self]
  rw [broadcastTo_apply x1 broadcasts_S1x64_S10000x64 (ix2 p q) (ix2 (0 : Fin 1) q) (fun a => by
    match a with
    | ⟨0, _⟩ => rfl
    | ⟨1, _⟩ => rfl)]

/-- The claimed array at row `r`, column `q`, in the same form. -/
theorem ba5_result_apply (A : FVec Ideal S100000x64 .f32) (b : FVec Ideal S1x64 .f32)
    (hrow : S1x64.BroadcastsInDim S100000x64 ![0, 1]) (r : Fin 100000) (q : Fin 64) :
    addf (F := Ideal) (s := S100000x64) (φ := .f32) A (broadcastInDim S100000x64 ![0, 1] hrow b) (ix2 r q)
      = A (ix2 r q) + b (ix2 (0 : Fin 1) q) := by
  rw [addf_apply, broadcastInDim_apply ![0, 1] hrow b (ix2 r q) (ix2 (0 : Fin 1) q) (fun a => by
    match a with
    | ⟨0, _⟩ => rfl
    | ⟨1, _⟩ => rfl)]

/-- The index maps over the ten grid points: the feature and result windows are at row block `t`, column block 0; the bias
    window stays at its one block. -/
theorem ba5_index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry (p, q) of the result window's block at point `t` sits at row `10000 t + p`, column `q` of the result array. -/
theorem ba5_result_block_emb (t : Fin cfg5.N) (p : Fin 10000) (q : Fin 64) (hr : t.val * 10000 + p.val < 100000) :
    ((cfg5.win 2).blk t).view.emb (ix2 p q) = ix2 (⟨t.val * 10000 + p.val, hr⟩ : Fin 100000) q := by
  obtain ⟨-, -, -, -, e4, e5⟩ := ba5_index_facts t
  funext a; apply Fin.ext
  match a with
  | ⟨0, _⟩ => show win5_2.index t (0 : Fin 2) * 10000 + 1 * p.val = t.val * 10000 + p.val; rw [e4]; omega
  | ⟨1, _⟩ => show win5_2.index t (1 : Fin 2) * 64 + 1 * q.val = q.val; rw [e5]; omega

/-- Entry (p, q) of the feature window's block at point `t` is the feature array's entry at row `10000 t + p`, column `q`. -/
theorem ba5_features_block_apply (c : Dev nD) (t : Fin cfg5.N) (p : Fin 10000) (q : Fin 64) (hr : t.val * 10000 + p.val < 100000) :
    iblk5 V c 0 t (ix2 p q) = V c (Pipeline.arrRef spec5 0) (ix2 (⟨t.val * 10000 + p.val, hr⟩ : Fin 100000) q) := by
  obtain ⟨e0, e1, -⟩ := ba5_index_facts t
  have hin : ((cfg5.win 0).blk t).view.emb (ix2 p q) = ix2 (⟨t.val * 10000 + p.val, hr⟩ : Fin 100000) q := by
    funext a; apply Fin.ext
    match a with
    | ⟨0, _⟩ => show win5_0.index t (0 : Fin 2) * 10000 + 1 * p.val = t.val * 10000 + p.val; rw [e0]; omega
    | ⟨1, _⟩ => show win5_0.index t (1 : Fin 2) * 64 + 1 * q.val = q.val; rw [e1]; omega
  unfold iblk5; rw [View.read_apply, hin]; rfl

/-- Entry (0, q) of the bias window's block, at every point, is the bias row's entry in column `q`: the block is the whole row. -/
theorem ba5_bias_block_apply (c : Dev nD) (t : Fin cfg5.N) (q : Fin 64) :
    iblk5 V c 1 t (ix2 (0 : Fin 1) q) = V c (Pipeline.arrRef spec5 1) (ix2 (0 : Fin 1) q) := by
  obtain ⟨-, -, e2, e3, -⟩ := ba5_index_facts t
  have hbias : ((cfg5.win 1).blk t).view.emb (ix2 (0 : Fin 1) q) = ix2 (0 : Fin 1) q := by
    funext a; apply Fin.ext
    match a with
    | ⟨0, _⟩ => show win5_1.index t (0 : Fin 2) * 1 + 1 * 0 = 0; rw [e2]
    | ⟨1, _⟩ => show win5_1.index t (1 : Fin 2) * 64 + 1 * q.val = q.val; rw [e3]; omega
  unfold iblk5; rw [View.read_apply, hbias]; rfl

/-- What point `t` writes back is block `t` of the claimed array. -/
theorem ba5_flushed (c : Dev nD) (hrow : S1x64.BroadcastsInDim S100000x64 ![0, 1]) (t : Fin cfg5.N) :
    (dat5 (F := Ideal) V c).flushed 2 t = ((cfg5.win 2).blk t).view.read (Elt Ideal)
      (addf (F := Ideal) (s := S100000x64) (φ := .f32) (V c (Pipeline.arrRef spec5 0)) (broadcastInDim S100000x64 ![0, 1] hrow (V c (Pipeline.arrRef spec5 1)))) := by
  show (cfg5.win 2).cut (grid5.coords t) ((dat5 V c).after 2 t) = _
  rw [after5_2]
  unfold out5_2
  rw [View.canon_unit_zero ba5_offsets_zero]
  simp only [View.ld_unit_zero (S := S10000x64) ba5_offsets_zero, View.ld_unit_zero (S := S1x64) ba5_offsets_zero]
  funext j
  obtain ⟨p, q, rfl⟩ : ∃ (p : Fin 10000) (q : Fin 64), j = ix2 p q := ⟨j 0, j 1, eq_ix2 j⟩
  have ht : t.val < 10 := lt_of_lt_of_eq t.isLt N_5
  have hp : p.val < 10000 := p.isLt
  have hr : t.val * 10000 + p.val < 100000 := by omega
  show k5_pay1 (iblk5 V c 0 t) (iblk5 V c 1 t) (ix2 p q) = (addf (F := Ideal) (s := S100000x64) (φ := .f32) (V c (Pipeline.arrRef spec5 0)) (broadcastInDim S100000x64 ![0, 1] hrow (V c (Pipeline.arrRef spec5 1)))) (((cfg5.win 2).blk t).view.emb (ix2 p q))
  rw [ba5_result_block_emb t p q hr]
  refine (ba5_payload_apply (iblk5 V c 0 t) (iblk5 V c 1 t) p q).trans ?_
  refine Eq.trans ?_ (ba5_result_apply (V c (Pipeline.arrRef spec5 0)) (V c (Pipeline.arrRef spec5 1)) hrow ⟨t.val * 10000 + p.val, hr⟩ q).symm
  rw [ba5_features_block_apply V c t p q hr, ba5_bias_block_apply V c t q]

/-- An index of the result array is in point `t`'s block iff each coordinate is in the block's range on its axis. -/
theorem ba5_mem_block (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v56).slice (win5_2.rect t)).set ↔ _
  rw [View.set_slice_whole, Rect.mem_set_unit]
  exact Iff.rfl

/-- The ten row blocks tile the result array: row `r` lies in the block of point `r / 10000`, and every point writes back. -/
theorem ba5_cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hlt : (i 0).val / 10000 < cfg5.N := by rw [show cfg5.N = 10 from N_5]; omega
  obtain ⟨-, -, -, -, e4, e5⟩ := ba5_index_facts ⟨(i 0).val / 10000, hlt⟩
  refine ⟨⟨(i 0).val / 10000, hlt⟩, flush5_2 _, ?_⟩
  rw [ba5_mem_block]
  intro a
  match a with
  | ⟨0, _⟩ =>
    show win5_2.index ⟨(i 0).val / 10000, hlt⟩ (0 : Fin 2) * 10000 ≤ (i 0).val ∧ (i 0).val < win5_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, hlt⟩ (1 : Fin 2) * 64 ≤ (i 1).val ∧ (i 1).val < win5_2.index ⟨(i 0).val / 10000, hlt⟩ (1 : Fin 2) * 64 + 64
    rw [e5]; omega

/-- The result array of region 5 after its ten grid points: the bias row added to every row. -/
theorem ba5 (c : Dev nD) (hrow : S1x64.BroadcastsInDim S100000x64 ![0, 1]) :
    (dat5 (F := Ideal) V c).arrAt 2 cfg5.N
      = addf (F := Ideal) (s := S100000x64) (φ := .f32) (V c (Pipeline.arrRef spec5 0)) (broadcastInDim S100000x64 ![0, 1] hrow (V c (Pipeline.arrRef spec5 1))) :=
  (dat5 (F := Ideal) V c).arrAt_eq_of_cover 2 _ (fun t _ => ba5_flushed V c hrow t) ba5_cover

end Cert.KernelIdeal.Reg

end
-- ==== Proof.RegMM6.lean ====
/-
  Region 6 of the kernel program: a row-blocked matrix product.

  The region cuts the 100000 rows of its left operand into ten blocks of 10000 rows; at every grid point it multiplies
  that block by the whole 128×64 right operand into a zero accumulator and writes the product back as the same
  block of rows of the result. Read over the extended reals, entry (r, q) of the result array after the run is
  `∑ k, X (r, k) * W (k, q)`, which is the whole product of the two arrays as the region finds them: the row blocks tile
  the result, and a row of the product depends only on the same row of the left operand.
-/
import proofs.«409801_j72988674228409_1_alg».proof.Proof.Gen.KernelIdeal.Frame
import proofs.«409801_j72988674228409_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's payload at an entry -/

/-- The block offsets of the body's loads and store are zero on both axes. -/
theorem off_zero6 : (![0, 0] : Fin 2 → Nat) = fun _ => 0 := funext fun a => by fin_cases a <;> rfl

/-- The dimension numbers of the body's product are those of a plain 10000×128 by 128×64 product. -/
theorem dot6_eq : dot_S10000x128_S128x64_S10000x64_1_0_0_1_n_n = DotDims.plain 10000 128 64 := rfl

/-- Over the extended reals a change of float format is the identity, so entry `(p, q)` of what the body stores is
    `∑ k, x0 (p, k) * x1 (k, q)` of the two blocks it loaded: the accumulator is zero. -/
theorem pay6_apply (x0 : Vec Ideal S10000x128 .f32) (x1 : Vec Ideal S128x64 .f32) (p : Fin 10000) (q : Fin 64) :
    k6_pay1 (F := Ideal) x0 x1 (ix2 p q) = ∑ k : Fin 128, x0 (ix2 p k) * x1 (ix2 k q) := by
  unfold k6_pay1
  simp only [shapeCast_self, dot6_eq]
  exact Cert.Lib.PlainDot.matmul_zero_apply (M := 10000) (K := 128) (N := 64) (φ₁ := .bf16) (φ₂ := .bf16) none x0 x1 p q

/-! ## The whole product, and the blocks of the three arrays -/

/-- The whole product of the two operand arrays as the region finds them. -/
abbrev whole6 (c : Dev nD) : FVec Ideal S100000x64 .f32 :=
  Host.dotGeneral (F := Ideal) (φ₁ := .f32) (φ₂ := .f32) (DotDims.plain 100000 128 64) none
    (V c (Pipeline.arrRef spec6 0)) (V c (Pipeline.arrRef spec6 1))

/-- One entry of a block of rows against the whole product: when row `p` of the left block `x0` is row `r` of the left
    array `X` and column `q` of the right block `x1` is column `q` of the right array `W`, entry `(p, q)` of what the body
    stores is entry `(r, q)` of the whole product `X · W`: both are `∑ k, X (r, k) * W (k, q)`. -/
theorem pay6_row (X : FVec Ideal S100000x128 .f32) (W : FVec Ideal S128x64 .f32)
    (x0 : Vec Ideal S10000x128 .f32) (x1 : Vec Ideal S128x64 .f32) (p : Fin 10000) (q : Fin 64) (r : Fin 100000)
    (h0 : ∀ k : Fin 128, x0 (ix2 p k) = X (ix2 r k)) (h1 : ∀ k : Fin 128, x1 (ix2 k q) = W (ix2 k q)) :
    k6_pay1 (F := Ideal) x0 x1 (ix2 p q)
      = Host.dotGeneral (F := Ideal) (φ₁ := .f32) (φ₂ := .f32) (DotDims.plain 100000 128 64) none X W (ix2 r q) := by
  rw [pay6_apply]
  refine Eq.trans ?_ (Cert.Lib.PlainDot.dotGeneral_apply (M := 100000) (K := 128) (N := 64) none .single X W r q).symm
  exact Finset.sum_congr rfl fun k _ => by rw [h0 k, h1 k]

/-- The printed index maps over the ten grid points: point `t` takes row block `t` of the left operand and of the result,
    and the one block of the right operand. -/
theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- Entry `x` of the left operand's block at point `t` is entry `(10000 t + x 0, x 1)` of the left operand array. -/
theorem lhs_blk6_apply (c : Dev nD) (t : Fin cfg6.N) (x : S10000x128.Idx) (i : S100000x128.Idx)
    (h0 : (i 0).val = t.val * 10000 + (x 0).val) (h1 : (i 1).val = (x 1).val) :
    (iblk6 V c 0 t : Vec Ideal S10000x128 .f32) x = (V c (Pipeline.arrRef spec6 0) : S100000x128.Idx → Elt Ideal .f32) i := by
  obtain ⟨e0, e1, -⟩ := idx_facts6 t
  unfold iblk6
  show V c (Pipeline.arrRef spec6 0) (((cfg6.win 0).blk t).view.emb x) = V c (Pipeline.arrRef spec6 0) i
  refine congrArg _ (funext fun a => Fin.ext ?_)
  match a with
  | ⟨0, _⟩ => show win6_0.index t (0 : Fin 2) * 10000 + 1 * (x 0).val = (i 0).val; omega
  | ⟨1, _⟩ => show win6_0.index t (1 : Fin 2) * 128 + 1 * (x 1).val = (i 1).val; omega

/-- The right operand's block at any point is the whole right operand array. -/
theorem rhs_blk6_apply (c : Dev nD) (t : Fin cfg6.N) (x : S128x64.Idx) :
    (iblk6 V c 1 t : Vec Ideal S128x64 .f32) x = (V c (Pipeline.arrRef spec6 1) : S128x64.Idx → Elt Ideal .f32) x := by
  obtain ⟨-, -, e2, e3, -⟩ := idx_facts6 t
  unfold iblk6
  show V c (Pipeline.arrRef spec6 1) (((cfg6.win 1).blk t).view.emb x) = V c (Pipeline.arrRef spec6 1) x
  refine congrArg _ (funext fun a => Fin.ext ?_)
  match a with
  | ⟨0, _⟩ => show win6_1.index t (0 : Fin 2) * 128 + 1 * (x 0).val = (x 0).val; omega
  | ⟨1, _⟩ => show win6_1.index t (1 : Fin 2) * 64 + 1 * (x 1).val = (x 1).val; omega

/-- Entry `(p, q)` of the result's block at point `t` sits at entry `(10000 t + p, q)` of the result array. -/
theorem out_blk6_emb (t : Fin cfg6.N) (p : Fin 10000) (q : Fin 64) (hr : t.val * 10000 + p.val < 100000) :
    ((cfg6.win 2).blk t).view.emb (ix2 p q) = (ix2 (⟨t.val * 10000 + p.val, hr⟩ : Fin 100000) q : S100000x64.Idx) := by
  obtain ⟨-, -, -, -, e4, e5⟩ := idx_facts6 t
  refine funext fun a => Fin.ext ?_
  match a with
  | ⟨0, _⟩ => show win6_2.index t (0 : Fin 2) * 10000 + 1 * p.val = t.val * 10000 + p.val; omega
  | ⟨1, _⟩ => show win6_2.index t (1 : Fin 2) * 64 + 1 * q.val = q.val; omega

/-! ## What a point writes back -/

/-- What point `t` writes back is block `t` of the whole product: a row of the product reads only the same row of the
    left operand, and the rows of the point's left block are the rows of its result block. -/
theorem flushed6_eq (c : Dev nD) (t : Fin cfg6.N) :
    (dat6 (F := Ideal) V c).flushed 2 t = ((cfg6.win 2).blk t).view.read (Elt Ideal) (whole6 V c) := by
  show (cfg6.win 2).cut (grid6.coords t) ((dat6 V c).after 2 t) = _
  rw [after6_2]
  unfold out6_2
  rw [View.canon_unit_zero off_zero6]
  simp only [View.ld_unit_zero (S := S10000x128) off_zero6, View.ld_unit_zero (S := S128x64) off_zero6]
  funext j
  obtain ⟨p, q, rfl⟩ : ∃ (p : Fin 10000) (q : Fin 64), j = ix2 p q := ⟨j 0, j 1, eq_ix2 j⟩
  have hN : cfg6.N = 10 := N_6
  have hr : t.val * 10000 + p.val < 100000 := by have := t.isLt; omega
  show k6_pay1 (F := Ideal) (iblk6 V c 0 t) (iblk6 V c 1 t) (ix2 p q) = whole6 V c (((cfg6.win 2).blk t).view.emb (ix2 p q))
  refine Eq.trans ?_ (congrArg (whole6 V c) (out_blk6_emb t p q hr)).symm
  exact pay6_row (V c (Pipeline.arrRef spec6 0)) (V c (Pipeline.arrRef spec6 1)) (iblk6 V c 0 t) (iblk6 V c 1 t) p q ⟨_, hr⟩
    (fun k => lhs_blk6_apply V c t (ix2 p k) (ix2 ⟨_, hr⟩ k) rfl rfl) (fun k => rhs_blk6_apply V c t (ix2 k q))

/-! ## The row blocks tile the result -/

/-- An entry of the result array is in point `t`'s block iff each coordinate is in the block's range on its axis. -/
theorem mem_blk6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v57).slice (win6_2.rect t)).set ↔ _
  rw [View.set_slice_whole, Rect.mem_set_unit]
  exact Iff.rfl

/-- Row `r` of the result lies in the block of point `r / 10000`, and every point writes its block back. -/
theorem cover6 (i : S100000x64.Idx) :
    ∃ t : Fin cfg6.N, (cfg6.win 2).flush t = true ∧ i ∈ ((cfg6.win 2).blk t).view.set := by
  have hN : cfg6.N = 10 := N_6
  have hi0 : (i 0).val < 100000 := (i 0).isLt
  have hi1 : (i 1).val < 64 := (i 1).isLt
  have ht : (i 0).val / 10000 < cfg6.N := by rw [hN]; omega
  obtain ⟨-, -, -, -, e4, e5⟩ := idx_facts6 ⟨(i 0).val / 10000, ht⟩
  have e4' : win6_2.index ⟨(i 0).val / 10000, ht⟩ (0 : Fin 2) = (i 0).val / 10000 := e4
  refine ⟨⟨(i 0).val / 10000, ht⟩, flush6_2 _, ?_⟩
  rw [mem_blk6]
  intro a
  match a with
  | ⟨0, _⟩ => show win6_2.index ⟨(i 0).val / 10000, ht⟩ (0 : Fin 2) * 10000 ≤ (i 0).val ∧ (i 0).val < win6_2.index ⟨(i 0).val / 10000, ht⟩ (0 : Fin 2) * 10000 + 10000; omega
  | ⟨1, _⟩ => show win6_2.index ⟨(i 0).val / 10000, ht⟩ (1 : Fin 2) * 64 ≤ (i 1).val ∧ (i 1).val < win6_2.index ⟨(i 0).val / 10000, ht⟩ (1 : Fin 2) * 64 + 64; omega

/-! ## The result array -/

/-- The result array of region 6 after its ten grid points is the whole product of its two operand arrays. -/
theorem mm6 (c : Dev nD) :
    (dat6 (F := Ideal) V c).arrAt 2 cfg6.N
      = (Host.dotGeneral (F := Ideal) (φ₁ := .f32) (φ₂ := .f32) (DotDims.plain 100000 128 64) none
          (V c (Pipeline.arrRef spec6 0)) (V c (Pipeline.arrRef spec6 1))) :=
  (dat6 (F := Ideal) V c).arrAt_eq_of_cover 2 (whole6 V c) (fun t _ => flushed6_eq V c t) cover6

end Cert.KernelIdeal.Reg

end
-- ==== Proof.RegBA7.lean ====
/-
  Region 7 of the kernel program: a row-blocked bias addition.

  The region cuts the 100000 rows of the aggregated features into ten blocks of 10000 rows; at every grid point it adds
  the one bias row (a 1×64 array, the same at every point) to each row of the block.
  Entry (r, q) of the result array after the run is `A (r, q) + b (0, q)`: the row blocks tile the result and
  the operation is pointwise in the row.
-/
import proofs.«409801_j72988674228409_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A whole-block access starts at row 0, column 0. -/
theorem ba7_offsets_zero : (![0, 0] : Fin 2 → Nat) = fun _ => 0 :=
  funext fun a => by match a with | ⟨0, _⟩ => rfl | ⟨1, _⟩ => rfl

/-- The body's value at row `p`, column `q` of its block: the block's entry plus the bias row's entry in that column. -/
theorem ba7_payload_apply (x0 : Vec Ideal S10000x64 .f32) (x1 : Vec Ideal S1x64 .f32) (p : Fin 10000) (q : Fin 64) :
    k7_pay1 (F := Ideal) x0 x1 (ix2 p q) = x0 (ix2 p q) + x1 (ix2 (0 : Fin 1) q) := by
  unfold k7_pay1
  simp only [addf_apply, shapeCast_self]
  rw [broadcastTo_apply x1 broadcasts_S1x64_S10000x64 (ix2 p q) (ix2 (0 : Fin 1) q) (fun a => by
    match a with
    | ⟨0, _⟩ => rfl
    | ⟨1, _⟩ => rfl)]

/-- The claimed array at row `r`, column `q`, in the same form. -/
theorem ba7_result_apply (A : FVec Ideal S100000x64 .f32) (b : FVec Ideal S1x64 .f32)
    (hrow : S1x64.BroadcastsInDim S100000x64 ![0, 1]) (r : Fin 100000) (q : Fin 64) :
    addf (F := Ideal) (s := S100000x64) (φ := .f32) A (broadcastInDim S100000x64 ![0, 1] hrow b) (ix2 r q)
      = A (ix2 r q) + b (ix2 (0 : Fin 1) q) := by
  rw [addf_apply, broadcastInDim_apply ![0, 1] hrow b (ix2 r q) (ix2 (0 : Fin 1) q) (fun a => by
    match a with
    | ⟨0, _⟩ => rfl
    | ⟨1, _⟩ => rfl)]

/-- The index maps over the ten grid points: the feature and result windows are at row block `t`, column block 0; the bias
    window stays at its one block. -/
theorem ba7_index_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Entry (p, q) of the result window's block at point `t` sits at row `10000 t + p`, column `q` of the result array. -/
theorem ba7_result_block_emb (t : Fin cfg7.N) (p : Fin 10000) (q : Fin 64) (hr : t.val * 10000 + p.val < 100000) :
    ((cfg7.win 2).blk t).view.emb (ix2 p q) = ix2 (⟨t.val * 10000 + p.val, hr⟩ : Fin 100000) q := by
  obtain ⟨-, -, -, -, e4, e5⟩ := ba7_index_facts t
  funext a; apply Fin.ext
  match a with
  | ⟨0, _⟩ => show win7_2.index t (0 : Fin 2) * 10000 + 1 * p.val = t.val * 10000 + p.val; rw [e4]; omega
  | ⟨1, _⟩ => show win7_2.index t (1 : Fin 2) * 64 + 1 * q.val = q.val; rw [e5]; omega

/-- Entry (p, q) of the feature window's block at point `t` is the feature array's entry at row `10000 t + p`, column `q`. -/
theorem ba7_features_block_apply (c : Dev nD) (t : Fin cfg7.N) (p : Fin 10000) (q : Fin 64) (hr : t.val * 10000 + p.val < 100000) :
    iblk7 V c 0 t (ix2 p q) = V c (Pipeline.arrRef spec7 0) (ix2 (⟨t.val * 10000 + p.val, hr⟩ : Fin 100000) q) := by
  obtain ⟨e0, e1, -⟩ := ba7_index_facts t
  have hin : ((cfg7.win 0).blk t).view.emb (ix2 p q) = ix2 (⟨t.val * 10000 + p.val, hr⟩ : Fin 100000) q := by
    funext a; apply Fin.ext
    match a with
    | ⟨0, _⟩ => show win7_0.index t (0 : Fin 2) * 10000 + 1 * p.val = t.val * 10000 + p.val; rw [e0]; omega
    | ⟨1, _⟩ => show win7_0.index t (1 : Fin 2) * 64 + 1 * q.val = q.val; rw [e1]; omega
  unfold iblk7; rw [View.read_apply, hin]; rfl

/-- Entry (0, q) of the bias window's block, at every point, is the bias row's entry in column `q`: the block is the whole row. -/
theorem ba7_bias_block_apply (c : Dev nD) (t : Fin cfg7.N) (q : Fin 64) :
    iblk7 V c 1 t (ix2 (0 : Fin 1) q) = V c (Pipeline.arrRef spec7 1) (ix2 (0 : Fin 1) q) := by
  obtain ⟨-, -, e2, e3, -⟩ := ba7_index_facts t
  have hbias : ((cfg7.win 1).blk t).view.emb (ix2 (0 : Fin 1) q) = ix2 (0 : Fin 1) q := by
    funext a; apply Fin.ext
    match a with
    | ⟨0, _⟩ => show win7_1.index t (0 : Fin 2) * 1 + 1 * 0 = 0; rw [e2]
    | ⟨1, _⟩ => show win7_1.index t (1 : Fin 2) * 64 + 1 * q.val = q.val; rw [e3]; omega
  unfold iblk7; rw [View.read_apply, hbias]; rfl

/-- What point `t` writes back is block `t` of the claimed array. -/
theorem ba7_flushed (c : Dev nD) (hrow : S1x64.BroadcastsInDim S100000x64 ![0, 1]) (t : Fin cfg7.N) :
    (dat7 (F := Ideal) V c).flushed 2 t = ((cfg7.win 2).blk t).view.read (Elt Ideal)
      (addf (F := Ideal) (s := S100000x64) (φ := .f32) (V c (Pipeline.arrRef spec7 0)) (broadcastInDim S100000x64 ![0, 1] hrow (V c (Pipeline.arrRef spec7 1)))) := by
  show (cfg7.win 2).cut (grid7.coords t) ((dat7 V c).after 2 t) = _
  rw [after7_2]
  unfold out7_2
  rw [View.canon_unit_zero ba7_offsets_zero]
  simp only [View.ld_unit_zero (S := S10000x64) ba7_offsets_zero, View.ld_unit_zero (S := S1x64) ba7_offsets_zero]
  funext j
  obtain ⟨p, q, rfl⟩ : ∃ (p : Fin 10000) (q : Fin 64), j = ix2 p q := ⟨j 0, j 1, eq_ix2 j⟩
  have ht : t.val < 10 := lt_of_lt_of_eq t.isLt N_7
  have hp : p.val < 10000 := p.isLt
  have hr : t.val * 10000 + p.val < 100000 := by omega
  show k7_pay1 (iblk7 V c 0 t) (iblk7 V c 1 t) (ix2 p q) = (addf (F := Ideal) (s := S100000x64) (φ := .f32) (V c (Pipeline.arrRef spec7 0)) (broadcastInDim S100000x64 ![0, 1] hrow (V c (Pipeline.arrRef spec7 1)))) (((cfg7.win 2).blk t).view.emb (ix2 p q))
  rw [ba7_result_block_emb t p q hr]
  refine (ba7_payload_apply (iblk7 V c 0 t) (iblk7 V c 1 t) p q).trans ?_
  refine Eq.trans ?_ (ba7_result_apply (V c (Pipeline.arrRef spec7 0)) (V c (Pipeline.arrRef spec7 1)) hrow ⟨t.val * 10000 + p.val, hr⟩ q).symm
  rw [ba7_features_block_apply V c t p q hr, ba7_bias_block_apply V c t q]

/-- An index of the result array is in point `t`'s block iff each coordinate is in the block's range on its axis. -/
theorem ba7_mem_block (t : Fin cfg7.N) (i : S100000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v66).slice (win7_2.rect t)).set ↔ _
  rw [View.set_slice_whole, Rect.mem_set_unit]
  exact Iff.rfl

/-- The ten row blocks tile the result array: row `r` lies in the block of point `r / 10000`, and every point writes back. -/
theorem ba7_cover (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  have hlt : (i 0).val / 10000 < cfg7.N := by rw [show cfg7.N = 10 from N_7]; omega
  obtain ⟨-, -, -, -, e4, e5⟩ := ba7_index_facts ⟨(i 0).val / 10000, hlt⟩
  refine ⟨⟨(i 0).val / 10000, hlt⟩, flush7_2 _, ?_⟩
  rw [ba7_mem_block]
  intro a
  match a with
  | ⟨0, _⟩ =>
    show win7_2.index ⟨(i 0).val / 10000, hlt⟩ (0 : Fin 2) * 10000 ≤ (i 0).val ∧ (i 0).val < win7_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win7_2.index ⟨(i 0).val / 10000, hlt⟩ (1 : Fin 2) * 64 ≤ (i 1).val ∧ (i 1).val < win7_2.index ⟨(i 0).val / 10000, hlt⟩ (1 : Fin 2) * 64 + 64
    rw [e5]; omega

/-- The result array of region 7 after its ten grid points: the bias row added to every row. -/
theorem ba7 (c : Dev nD) (hrow : S1x64.BroadcastsInDim S100000x64 ![0, 1]) :
    (dat7 (F := Ideal) V c).arrAt 2 cfg7.N
      = addf (F := Ideal) (s := S100000x64) (φ := .f32) (V c (Pipeline.arrRef spec7 0)) (broadcastInDim S100000x64 ![0, 1] hrow (V c (Pipeline.arrRef spec7 1))) :=
  (dat7 (F := Ideal) V c).arrAt_eq_of_cover 2 _ (fun t _ => ba7_flushed V c hrow t) ba7_cover

end Cert.KernelIdeal.Reg

end
-- ==== Proof.Chase.lean ====
/-
  The kernel program's two results as functions of its arguments.

  The run of the kernel program passes seventeen boundaries: a host stretch ends at one, a region ends at one. A buffer
  that no operation of a stretch writes, and that is not an array of a region, holds at the end of that stretch or region what
  it held at its start; so the source ids, the destination ids and the edge weights computed before the first region, and
  every weight and bias argument, are still in place where a later stretch or region reads them. Following the two result
  buffers back through the boundaries, each region's result array is the whole-array function of its operand arrays (a matrix
  product; a bias row added, with or without the clamp at zero) and each propagation stretch is the reference's own step once the
  range guard on the source ids is known to hold everywhere. The results are then the reference's functions of the arguments:
  two hidden layers and the two heads over them.
-/
import proofs.«409801_j72988674228409_1_alg».proof.Proof.Gen.KernelIdeal.Frame
import proofs.«409801_j72988674228409_1_alg».proof.Proof.KHost
import proofs.«409801_j72988674228409_1_alg».proof.Proof.TakeFill
import proofs.«409801_j72988674228409_1_alg».proof.Proof.Spec
import proofs.«409801_j72988674228409_1_alg».proof.Proof.RegMM0
import proofs.«409801_j72988674228409_1_alg».proof.Proof.RegBA1
import proofs.«409801_j72988674228409_1_alg».proof.Proof.RegMM2
import proofs.«409801_j72988674228409_1_alg».proof.Proof.RegBA3
import proofs.«409801_j72988674228409_1_alg».proof.Proof.RegMM4
import proofs.«409801_j72988674228409_1_alg».proof.Proof.RegBA5
import proofs.«409801_j72988674228409_1_alg».proof.Proof.RegMM6
import proofs.«409801_j72988674228409_1_alg».proof.Proof.RegBA7

set_option maxRecDepth 16384

noncomputable section

namespace Cert.KernelIdeal.Gen

open Idealize.ShloMosaic Idealize.ShloMosaic.TcCoe Idealize.SL.Sem Idealize.ShloMosaic.StableHlo
open Cert.KernelIdeal.Take Cert.KernelIdeal.Reg

variable (m : (ℓ : Loc nD τ sig) → Buf (Elt Ideal) ℓ) (ρ : Dev nD → PrngReg)

/-! ## A buffer nothing writes keeps its contents -/

/-- Over a host stretch none of whose operations writes the buffer. -/
theorem keep_host (ops : List (HloOp τ sig (Elt Ideal))) (W : Valuation τ sig (Elt Ideal)) (b : Ref sig .tc)
    (h : ∀ op ∈ ops, (Proc.devRef .tc b : DevRef τ sig) ∉ op.writes) :
    StableHlo.after ops W (Proc.devRef .tc b) = W (Proc.devRef .tc b) :=
  StableHlo.after_of_forall_not_mem (b := Proc.devRef .tc b) _ _ h

/-- From the launch to the first region. -/
theorem keep_1 (c : Dev nD) (b : Ref sig .tc) (h0 : ∀ op ∈ (hostOps0 : List (HloOp τ sig (Elt Ideal))), (Proc.devRef .tc b : DevRef τ sig) ∉ op.writes) :
    W1 m ρ c (Proc.devRef .tc b) = m ((c : Thread nD τ).loc b) :=
  keep_host hostOps0 (W0 m ρ c) b h0

/-- Over the first propagation stretch. -/
theorem keep_4_2 (c : Dev nD) (b : Ref sig .tc) (h : ∀ op ∈ (hostOps1 : List (HloOp τ sig (Elt Ideal))), (Proc.devRef .tc b : DevRef τ sig) ∉ op.writes)
    (h' : ∀ op ∈ (hostOps1_1 : List (HloOp τ sig (Elt Ideal))), (Proc.devRef .tc b : DevRef τ sig) ∉ op.writes) :
    W4 m ρ c (Proc.devRef .tc b) = W2 m ρ c (Proc.devRef .tc b) :=
  (keep_host hostOps1_1 (W3 m ρ c) b h').trans (keep_host hostOps1 (W2 m ρ c) b h)

/-- Over the second propagation stretch. -/
theorem keep_8_6 (c : Dev nD) (b : Ref sig .tc) (h : ∀ op ∈ (hostOps3 : List (HloOp τ sig (Elt Ideal))), (Proc.devRef .tc b : DevRef τ sig) ∉ op.writes)
    (h' : ∀ op ∈ (hostOps3_1 : List (HloOp τ sig (Elt Ideal))), (Proc.devRef .tc b : DevRef τ sig) ∉ op.writes) :
    W8 m ρ c (Proc.devRef .tc b) = W6 m ρ c (Proc.devRef .tc b) :=
  (keep_host hostOps3_1 (W7 m ρ c) b h').trans (keep_host hostOps3 (W6 m ρ c) b h)

/-- Over the third propagation stretch. -/
theorem keep_12_10 (c : Dev nD) (b : Ref sig .tc) (h : ∀ op ∈ (hostOps5 : List (HloOp τ sig (Elt Ideal))), (Proc.devRef .tc b : DevRef τ sig) ∉ op.writes)
    (h' : ∀ op ∈ (hostOps5_1 : List (HloOp τ sig (Elt Ideal))), (Proc.devRef .tc b : DevRef τ sig) ∉ op.writes) :
    W12 m ρ c (Proc.devRef .tc b) = W10 m ρ c (Proc.devRef .tc b) :=
  (keep_host hostOps5_1 (W11 m ρ c) b h').trans (keep_host hostOps5 (W10 m ρ c) b h)

/-- Over the fourth propagation stretch. -/
theorem keep_16_14 (c : Dev nD) (b : Ref sig .tc) (h : ∀ op ∈ (hostOps7 : List (HloOp τ sig (Elt Ideal))), (Proc.devRef .tc b : DevRef τ sig) ∉ op.writes)
    (h' : ∀ op ∈ (hostOps7_1 : List (HloOp τ sig (Elt Ideal))), (Proc.devRef .tc b : DevRef τ sig) ∉ op.writes) :
    W16 m ρ c (Proc.devRef .tc b) = W14 m ρ c (Proc.devRef .tc b) :=
  (keep_host hostOps7_1 (W15 m ρ c) b h').trans (keep_host hostOps7 (W14 m ρ c) b h)

/-! ## The ids and the edge weights where they are read -/

/-- The source ids are in place at the entry of every propagation stretch. -/
theorem src_1 (c : Dev nD) : W1 m ρ c (Proc.devRef .tc main_v3) = srcIds (m ((c : Thread nD τ).loc main_arg1)) := s0_src (W0 m ρ c)
theorem src_2 (c : Dev nD) : W2 m ρ c (Proc.devRef .tc main_v3) = srcIds (m ((c : Thread nD τ).loc main_arg1)) := (W2_of_ne m ρ c main_v3 (by decide)).trans (src_1 m ρ c)
theorem src_6 (c : Dev nD) : W6 m ρ c (Proc.devRef .tc main_v3) = srcIds (m ((c : Thread nD τ).loc main_arg1)) := ((W6_of_ne m ρ c main_v3 (by decide)).trans ((W5_of_ne m ρ c main_v3 (by decide)).trans (keep_4_2 m ρ c main_v3 (by not_written hostOps1) (by not_written hostOps1_1)))).trans (src_2 m ρ c)
theorem src_10 (c : Dev nD) : W10 m ρ c (Proc.devRef .tc main_v3) = srcIds (m ((c : Thread nD τ).loc main_arg1)) := ((W10_of_ne m ρ c main_v3 (by decide)).trans ((W9_of_ne m ρ c main_v3 (by decide)).trans (keep_8_6 m ρ c main_v3 (by not_written hostOps3) (by not_written hostOps3_1)))).trans (src_6 m ρ c)
theorem src_14 (c : Dev nD) : W14 m ρ c (Proc.devRef .tc main_v3) = srcIds (m ((c : Thread nD τ).loc main_arg1)) := ((W14_of_ne m ρ c main_v3 (by decide)).trans ((W13_of_ne m ρ c main_v3 (by decide)).trans (keep_12_10 m ρ c main_v3 (by not_written hostOps5) (by not_written hostOps5_1)))).trans (src_10 m ρ c)

/-- The destination ids are in place at the entry of every propagation stretch. -/
theorem dst_1 (c : Dev nD) : W1 m ρ c (Proc.devRef .tc main_v6) = dstIds (m ((c : Thread nD τ).loc main_arg1)) := s0_dst (W0 m ρ c)
theorem dst_2 (c : Dev nD) : W2 m ρ c (Proc.devRef .tc main_v6) = dstIds (m ((c : Thread nD τ).loc main_arg1)) := (W2_of_ne m ρ c main_v6 (by decide)).trans (dst_1 m ρ c)
theorem dst_6 (c : Dev nD) : W6 m ρ c (Proc.devRef .tc main_v6) = dstIds (m ((c : Thread nD τ).loc main_arg1)) := ((W6_of_ne m ρ c main_v6 (by decide)).trans ((W5_of_ne m ρ c main_v6 (by decide)).trans (keep_4_2 m ρ c main_v6 (by not_written hostOps1) (by not_written hostOps1_1)))).trans (dst_2 m ρ c)
theorem dst_10 (c : Dev nD) : W10 m ρ c (Proc.devRef .tc main_v6) = dstIds (m ((c : Thread nD τ).loc main_arg1)) := ((W10_of_ne m ρ c main_v6 (by decide)).trans ((W9_of_ne m ρ c main_v6 (by decide)).trans (keep_8_6 m ρ c main_v6 (by not_written hostOps3) (by not_written hostOps3_1)))).trans (dst_6 m ρ c)
theorem dst_14 (c : Dev nD) : W14 m ρ c (Proc.devRef .tc main_v6) = dstIds (m ((c : Thread nD τ).loc main_arg1)) := ((W14_of_ne m ρ c main_v6 (by decide)).trans ((W13_of_ne m ρ c main_v6 (by decide)).trans (keep_12_10 m ρ c main_v6 (by not_written hostOps5) (by not_written hostOps5_1)))).trans (dst_10 m ρ c)

/-- The edge weights are in place at the entry of every propagation stretch. -/
theorem norm_1 (c : Dev nD) : W1 m ρ c (Proc.devRef .tc main_v26) = norm (m ((c : Thread nD τ).loc main_arg1)) := s0_norm (W0 m ρ c)
theorem norm_2 (c : Dev nD) : W2 m ρ c (Proc.devRef .tc main_v26) = norm (m ((c : Thread nD τ).loc main_arg1)) := (W2_of_ne m ρ c main_v26 (by decide)).trans (norm_1 m ρ c)
theorem norm_6 (c : Dev nD) : W6 m ρ c (Proc.devRef .tc main_v26) = norm (m ((c : Thread nD τ).loc main_arg1)) := ((W6_of_ne m ρ c main_v26 (by decide)).trans ((W5_of_ne m ρ c main_v26 (by decide)).trans (keep_4_2 m ρ c main_v26 (by not_written hostOps1) (by not_written hostOps1_1)))).trans (norm_2 m ρ c)
theorem norm_10 (c : Dev nD) : W10 m ρ c (Proc.devRef .tc main_v26) = norm (m ((c : Thread nD τ).loc main_arg1)) := ((W10_of_ne m ρ c main_v26 (by decide)).trans ((W9_of_ne m ρ c main_v26 (by decide)).trans (keep_8_6 m ρ c main_v26 (by not_written hostOps3) (by not_written hostOps3_1)))).trans (norm_6 m ρ c)
theorem norm_14 (c : Dev nD) : W14 m ρ c (Proc.devRef .tc main_v26) = norm (m ((c : Thread nD τ).loc main_arg1)) := ((W14_of_ne m ρ c main_v26 (by decide)).trans ((W13_of_ne m ρ c main_v26 (by decide)).trans (keep_12_10 m ρ c main_v26 (by not_written hostOps5) (by not_written hostOps5_1)))).trans (norm_10 m ρ c)

/-! ## The arguments where they are read -/

theorem arg_1 (c : Dev nD) (b : Ref sig .tc) (h0 : ∀ op ∈ (hostOps0 : List (HloOp τ sig (Elt Ideal))), (Proc.devRef .tc b : DevRef τ sig) ∉ op.writes) :
    W1 m ρ c (Proc.devRef .tc b) = m ((c : Thread nD τ).loc b) := keep_1 m ρ c b h0
theorem arg0_1 (c : Dev nD) : W1 m ρ c (Proc.devRef .tc main_arg0) = m ((c : Thread nD τ).loc main_arg0) := keep_1 m ρ c main_arg0 (by not_written hostOps0)
theorem arg2_1 (c : Dev nD) : W1 m ρ c (Proc.devRef .tc main_arg2) = m ((c : Thread nD τ).loc main_arg2) := keep_1 m ρ c main_arg2 (by not_written hostOps0)
theorem arg3_2 (c : Dev nD) : W2 m ρ c (Proc.devRef .tc main_arg3) = m ((c : Thread nD τ).loc main_arg3) := (W2_of_ne m ρ c main_arg3 (by decide)).trans (keep_1 m ρ c main_arg3 (by not_written hostOps0))
theorem arg4_2 (c : Dev nD) : W2 m ρ c (Proc.devRef .tc main_arg4) = m ((c : Thread nD τ).loc main_arg4) := (W2_of_ne m ρ c main_arg4 (by decide)).trans (keep_1 m ρ c main_arg4 (by not_written hostOps0))
theorem arg4_5 (c : Dev nD) : W5 m ρ c (Proc.devRef .tc main_arg4) = m ((c : Thread nD τ).loc main_arg4) :=
  ((W5_of_ne m ρ c main_arg4 (by decide)).trans (keep_4_2 m ρ c main_arg4 (by not_written hostOps1) (by not_written hostOps1_1))).trans (arg4_2 m ρ c)

/-! ## The first hidden layer -/

/-- The first product: the node features times the first weight matrix. -/
theorem prod_2 (c : Dev nD) :
    W2 m ρ c (Proc.devRef .tc main_v27) = Host.dotGeneral (F := Ideal) (φ₁ := .f32) (φ₂ := .f32) Cert.ReferenceIdeal.dot_S100000x128_S128x128_S100000x128_1_0_0_1_n_n none (m ((c : Thread nD τ).loc main_arg0)) (m ((c : Thread nD τ).loc main_arg2)) := by
  refine (W2_arr m ρ c 2).trans ((mm0 (V1 m ρ) c).trans ?_)
  rw [← dot128_spec]
  exact congrArg₂ (fun x w => Host.dotGeneral (F := Ideal) (φ₁ := .f32) (φ₂ := .f32) (DotDims.plain 100000 128 128) none x w) (arg0_1 m ρ c) (arg2_1 m ρ c)

/-- Its propagation: with every source id in range the guarded take is the plain one, and the step is the reference's. -/
theorem agg_4 (c : Dev nD) (hs : ∀ i, 0 ≤ (srcIds (m ((c : Thread nD τ).loc main_arg1)) i).toInt ∧ (srcIds (m ((c : Thread nD τ).loc main_arg1)) i).toInt < 100000) :
    W4 m ρ c (Proc.devRef .tc main_v34)
      = Cert.Spec.agg128 (F := Ideal) (m ((c : Thread nD τ).loc main_arg1)) (Host.dotGeneral (F := Ideal) (φ₁ := .f32) (φ₂ := .f32) Cert.ReferenceIdeal.dot_S100000x128_S128x128_S100000x128_1_0_0_1_n_n none (m ((c : Thread nD τ).loc main_arg0)) (m ((c : Thread nD τ).loc main_arg2))) := by
  have h := s1_agg (W2 m ρ c)
  rw [dst_2 m ρ c, src_2 m ρ c, norm_2 m ρ c, prod_2 m ρ c, take128 _ _ hs] at h
  exact h.trans (agg128_spec _ _)

/-- The first bias as a row. -/
theorem bias_4 (c : Dev nD) :
    W4 m ρ c (Proc.devRef .tc main_v35) = broadcastInDim Cert.ReferenceIdeal.S1x128 ![1] Cert.ReferenceIdeal.Facts₀.bcast_S128_S1x128_1 (m ((c : Thread nD τ).loc main_arg3)) := by
  have h := s1_bias (W2 m ρ c)
  rw [arg3_2 m ρ c] at h
  exact h.trans (reshape_row128 _ _)

/-- The first hidden layer's features. -/
theorem layer_5 (c : Dev nD) (hs : ∀ i, 0 ≤ (srcIds (m ((c : Thread nD τ).loc main_arg1)) i).toInt ∧ (srcIds (m ((c : Thread nD τ).loc main_arg1)) i).toInt < 100000) :
    W5 m ρ c (Proc.devRef .tc main_v36) = Cert.Spec.layer (F := Ideal) (m ((c : Thread nD τ).loc main_arg1)) (m ((c : Thread nD τ).loc main_arg0)) (m ((c : Thread nD τ).loc main_arg2)) (m ((c : Thread nD τ).loc main_arg3)) := by
  have h : (dat1 (F := Ideal) (V4 m ρ) c).arrAt 2 cfg1.N
      = maximumf (F := Ideal) (addf (W4 m ρ c (Proc.devRef .tc main_v34)) (broadcastInDim Cert.ReferenceIdeal.S100000x128 ![0, 1] Cert.ReferenceIdeal.Facts₀.bcast_S1x128_S100000x128_0_1 (W4 m ρ c (Proc.devRef .tc main_v35)))) (broadcastInDim Cert.ReferenceIdeal.S100000x128 ![] Cert.ReferenceIdeal.Facts₀.bcast_S_S100000x128 (constant (F := Ideal) Cert.ReferenceIdeal.S_ .f32 0x00000000#32)) :=
    ba1 (V4 m ρ) c Cert.ReferenceIdeal.Facts₀.bcast_S1x128_S100000x128_0_1 Cert.ReferenceIdeal.Facts₀.bcast_S_S100000x128
  rw [agg_4 m ρ c hs, bias_4 m ρ c] at h
  exact (W5_arr m ρ c 2).trans h

/-! ## The second hidden layer -/

theorem arg5_2 (c : Dev nD) : W2 m ρ c (Proc.devRef .tc main_arg5) = m ((c : Thread nD τ).loc main_arg5) := (W2_of_ne m ρ c main_arg5 (by decide)).trans (keep_1 m ρ c main_arg5 (by not_written hostOps0))
theorem arg5_6 (c : Dev nD) : W6 m ρ c (Proc.devRef .tc main_arg5) = m ((c : Thread nD τ).loc main_arg5) := ((W6_of_ne m ρ c main_arg5 (by decide)).trans ((W5_of_ne m ρ c main_arg5 (by decide)).trans (keep_4_2 m ρ c main_arg5 (by not_written hostOps1) (by not_written hostOps1_1)))).trans (arg5_2 m ρ c)

/-- The second product: the first layer's features times the second weight matrix. -/
theorem prod_6 (c : Dev nD) (hs : ∀ i, 0 ≤ (srcIds (m ((c : Thread nD τ).loc main_arg1)) i).toInt ∧ (srcIds (m ((c : Thread nD τ).loc main_arg1)) i).toInt < 100000) :
    W6 m ρ c (Proc.devRef .tc main_v37) = Host.dotGeneral (F := Ideal) (φ₁ := .f32) (φ₂ := .f32) Cert.ReferenceIdeal.dot_S100000x128_S128x128_S100000x128_1_0_0_1_n_n none (Cert.Spec.layer (F := Ideal) (m ((c : Thread nD τ).loc main_arg1)) (m ((c : Thread nD τ).loc main_arg0)) (m ((c : Thread nD τ).loc main_arg2)) (m ((c : Thread nD τ).loc main_arg3))) (m ((c : Thread nD τ).loc main_arg4)) := by
  refine (W6_arr m ρ c 2).trans ((mm2 (V5 m ρ) c).trans ?_)
  rw [← dot128_spec]
  exact congrArg₂ (fun x w => Host.dotGeneral (F := Ideal) (φ₁ := .f32) (φ₂ := .f32) (DotDims.plain 100000 128 128) none x w) (layer_5 m ρ c hs) (arg4_5 m ρ c)

theorem agg_8 (c : Dev nD) (hs : ∀ i, 0 ≤ (srcIds (m ((c : Thread nD τ).loc main_arg1)) i).toInt ∧ (srcIds (m ((c : Thread nD τ).loc main_arg1)) i).toInt < 100000) :
    W8 m ρ c (Proc.devRef .tc main_v44) = Cert.Spec.agg128 (F := Ideal) (m ((c : Thread nD τ).loc main_arg1)) (Host.dotGeneral (F := Ideal) (φ₁ := .f32) (φ₂ := .f32) Cert.ReferenceIdeal.dot_S100000x128_S128x128_S100000x128_1_0_0_1_n_n none (Cert.Spec.layer (F := Ideal) (m ((c : Thread nD τ).loc main_arg1)) (m ((c : Thread nD τ).loc main_arg0)) (m ((c : Thread nD τ).loc main_arg2)) (m ((c : Thread nD τ).loc main_arg3))) (m ((c : Thread nD τ).loc main_arg4))) := by
  have h := s3_agg (W6 m ρ c)
  rw [dst_6 m ρ c, src_6 m ρ c, norm_6 m ρ c, prod_6 m ρ c hs, take128 _ _ hs] at h
  exact h.trans (agg128_spec _ _)

theorem bias_8 (c : Dev nD) :
    W8 m ρ c (Proc.devRef .tc main_v45) = broadcastInDim Cert.ReferenceIdeal.S1x128 ![1] Cert.ReferenceIdeal.Facts₀.bcast_S128_S1x128_1 (m ((c : Thread nD τ).loc main_arg5)) := by
  have h := s3_bias (W6 m ρ c)
  rw [arg5_6 m ρ c] at h
  exact h.trans (reshape_row128 _ _)

/-- The features after the two hidden layers. -/
theorem hidden_9 (c : Dev nD) (hs : ∀ i, 0 ≤ (srcIds (m ((c : Thread nD τ).loc main_arg1)) i).toInt ∧ (srcIds (m ((c : Thread nD τ).loc main_arg1)) i).toInt < 100000) :
    W9 m ρ c (Proc.devRef .tc main_v46) = Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : (dat3 (F := Ideal) (V8 m ρ) c).arrAt 2 cfg3.N
      = maximumf (F := Ideal) (addf (W8 m ρ c (Proc.devRef .tc main_v44)) (broadcastInDim Cert.ReferenceIdeal.S100000x128 ![0, 1] Cert.ReferenceIdeal.Facts₀.bcast_S1x128_S100000x128_0_1 (W8 m ρ c (Proc.devRef .tc main_v45)))) (broadcastInDim Cert.ReferenceIdeal.S100000x128 ![] Cert.ReferenceIdeal.Facts₀.bcast_S_S100000x128 (constant (F := Ideal) Cert.ReferenceIdeal.S_ .f32 0x00000000#32)) :=
    ba3 (V8 m ρ) c Cert.ReferenceIdeal.Facts₀.bcast_S1x128_S100000x128_0_1 Cert.ReferenceIdeal.Facts₀.bcast_S_S100000x128
  rw [agg_8 m ρ c hs, bias_8 m ρ c] at h
  exact (W9_arr m ρ c 2).trans h

/-! ## The first head -/

theorem arg6_2 (c : Dev nD) : W2 m ρ c (Proc.devRef .tc main_arg6) = m ((c : Thread nD τ).loc main_arg6) := (W2_of_ne m ρ c main_arg6 (by decide)).trans (keep_1 m ρ c main_arg6 (by not_written hostOps0))
theorem arg6_6 (c : Dev nD) : W6 m ρ c (Proc.devRef .tc main_arg6) = m ((c : Thread nD τ).loc main_arg6) := ((W6_of_ne m ρ c main_arg6 (by decide)).trans ((W5_of_ne m ρ c main_arg6 (by decide)).trans (keep_4_2 m ρ c main_arg6 (by not_written hostOps1) (by not_written hostOps1_1)))).trans (arg6_2 m ρ c)
theorem arg6_9 (c : Dev nD) : W9 m ρ c (Proc.devRef .tc main_arg6) = m ((c : Thread nD τ).loc main_arg6) :=
  ((W9_of_ne m ρ c main_arg6 (by decide)).trans (keep_8_6 m ρ c main_arg6 (by not_written hostOps3) (by not_written hostOps3_1))).trans (arg6_6 m ρ c)

theorem arg7_2 (c : Dev nD) : W2 m ρ c (Proc.devRef .tc main_arg7) = m ((c : Thread nD τ).loc main_arg7) := (W2_of_ne m ρ c main_arg7 (by decide)).trans (keep_1 m ρ c main_arg7 (by not_written hostOps0))
theorem arg7_6 (c : Dev nD) : W6 m ρ c (Proc.devRef .tc main_arg7) = m ((c : Thread nD τ).loc main_arg7) := ((W6_of_ne m ρ c main_arg7 (by decide)).trans ((W5_of_ne m ρ c main_arg7 (by decide)).trans (keep_4_2 m ρ c main_arg7 (by not_written hostOps1) (by not_written hostOps1_1)))).trans (arg7_2 m ρ c)
theorem arg7_10 (c : Dev nD) : W10 m ρ c (Proc.devRef .tc main_arg7) = m ((c : Thread nD τ).loc main_arg7) := ((W10_of_ne m ρ c main_arg7 (by decide)).trans ((W9_of_ne m ρ c main_arg7 (by decide)).trans (keep_8_6 m ρ c main_arg7 (by not_written hostOps3) (by not_written hostOps3_1)))).trans (arg7_6 m ρ c)

theorem prod_10 (c : Dev nD) (hs : ∀ i, 0 ≤ (srcIds (m ((c : Thread nD τ).loc main_arg1)) i).toInt ∧ (srcIds (m ((c : Thread nD τ).loc main_arg1)) i).toInt < 100000) :
    W10 m ρ c (Proc.devRef .tc main_v47) = Host.dotGeneral (F := Ideal) (φ₁ := .f32) (φ₂ := .f32) Cert.ReferenceIdeal.dot_S100000x128_S128x64_S100000x64_1_0_0_1_n_n none (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  refine (W10_arr m ρ c 2).trans ((mm4 (V9 m ρ) c).trans ?_)
  rw [← dot64_spec]
  exact congrArg₂ (fun x w => Host.dotGeneral (F := Ideal) (φ₁ := .f32) (φ₂ := .f32) (DotDims.plain 100000 128 64) none x w) (hidden_9 m ρ c hs) (arg6_9 m ρ c)

theorem agg_12 (c : Dev nD) (hs : ∀ i, 0 ≤ (srcIds (m ((c : Thread nD τ).loc main_arg1)) i).toInt ∧ (srcIds (m ((c : Thread nD τ).loc main_arg1)) i).toInt < 100000) :
    W12 m ρ c (Proc.devRef .tc main_v54) = Cert.Spec.agg64 (F := Ideal) (m ((c : Thread nD τ).loc main_arg1)) (Host.dotGeneral (F := Ideal) (φ₁ := .f32) (φ₂ := .f32) Cert.ReferenceIdeal.dot_S100000x128_S128x64_S100000x64_1_0_0_1_n_n none (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
  have h := s5_agg (W10 m ρ c)
  rw [dst_10 m ρ c, src_10 m ρ c, norm_10 m ρ c, prod_10 m ρ c hs, take64 _ _ hs] at h
  exact h.trans (agg64_spec _ _)

theorem bias_12 (c : Dev nD) :
    W12 m ρ c (Proc.devRef .tc main_v55) = broadcastInDim Cert.ReferenceIdeal.S1x64 ![1] Cert.ReferenceIdeal.Facts₀.bcast_S64_S1x64_1 (m ((c : Thread nD τ).loc main_arg7)) := by
  have h := s5_bias (W10 m ρ c)
  rw [arg7_10 m ρ c] at h
  exact h.trans (reshape_row64 _ _)

/-- The first result as it leaves its region. -/
theorem head_13 (c : Dev nD) (hs : ∀ i, 0 ≤ (srcIds (m ((c : Thread nD τ).loc main_arg1)) i).toInt ∧ (srcIds (m ((c : Thread nD τ).loc main_arg1)) i).toInt < 100000) :
    W13 m ρ c (Proc.devRef .tc main_v56) = Cert.Spec.head (F := Ideal) (m ((c : Thread nD τ).loc main_arg1)) (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) := by
  have h : (dat5 (F := Ideal) (V12 m ρ) c).arrAt 2 cfg5.N
      = addf (F := Ideal) (s := Cert.ReferenceIdeal.S100000x64) (φ := .f32) (W12 m ρ c (Proc.devRef .tc main_v54)) (broadcastInDim Cert.ReferenceIdeal.S100000x64 ![0, 1] Cert.ReferenceIdeal.Facts₀.bcast_S1x64_S100000x64_0_1 (W12 m ρ c (Proc.devRef .tc main_v55))) :=
    ba5 (V12 m ρ) c Cert.ReferenceIdeal.Facts₀.bcast_S1x64_S100000x64_0_1
  rw [agg_12 m ρ c hs, bias_12 m ρ c] at h
  exact (W13_arr m ρ c 2).trans h

/-- It is still there at the end of the run. -/
theorem out0_17 (c : Dev nD) (hs : ∀ i, 0 ≤ (srcIds (m ((c : Thread nD τ).loc main_arg1)) i).toInt ∧ (srcIds (m ((c : Thread nD τ).loc main_arg1)) i).toInt < 100000) :
    W17 m ρ c (Proc.devRef .tc main_v56) = Cert.Spec.head (F := Ideal) (m ((c : Thread nD τ).loc main_arg1)) (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) :=
  ((W17_of_ne m ρ c main_v56 (by decide)).trans ((keep_16_14 m ρ c main_v56 (by not_written hostOps7) (by not_written hostOps7_1)).trans
    (W14_of_ne m ρ c main_v56 (by decide)))).trans (head_13 m ρ c hs)

/-! ## The second head -/

/-- The hidden features are still in place where the second head's product reads them: its first product region only read them. -/
theorem hidden_13 (c : Dev nD) (hs : ∀ i, 0 ≤ (srcIds (m ((c : Thread nD τ).loc main_arg1)) i).toInt ∧ (srcIds (m ((c : Thread nD τ).loc main_arg1)) i).toInt < 100000) :
    W13 m ρ c (Proc.devRef .tc main_v46) = Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W13_of_ne m ρ c main_v46 (by decide)).trans ((keep_12_10 m ρ c main_v46 (by not_written hostOps5) (by not_written hostOps5_1)).trans
    ((W10_arr m ρ c 0).trans (((dat4 (V9 m ρ) c).arrAt_in 0 rfl _).trans (A_eq4 (V9 m ρ) c 0))))).trans (hidden_9 m ρ c hs)

theorem arg8_2 (c : Dev nD) : W2 m ρ c (Proc.devRef .tc main_arg8) = m ((c : Thread nD τ).loc main_arg8) := (W2_of_ne m ρ c main_arg8 (by decide)).trans (keep_1 m ρ c main_arg8 (by not_written hostOps0))
theorem arg8_6 (c : Dev nD) : W6 m ρ c (Proc.devRef .tc main_arg8) = m ((c : Thread nD τ).loc main_arg8) := ((W6_of_ne m ρ c main_arg8 (by decide)).trans ((W5_of_ne m ρ c main_arg8 (by decide)).trans (keep_4_2 m ρ c main_arg8 (by not_written hostOps1) (by not_written hostOps1_1)))).trans (arg8_2 m ρ c)
theorem arg8_10 (c : Dev nD) : W10 m ρ c (Proc.devRef .tc main_arg8) = m ((c : Thread nD τ).loc main_arg8) := ((W10_of_ne m ρ c main_arg8 (by decide)).trans ((W9_of_ne m ρ c main_arg8 (by decide)).trans (keep_8_6 m ρ c main_arg8 (by not_written hostOps3) (by not_written hostOps3_1)))).trans (arg8_6 m ρ c)
theorem arg8_13 (c : Dev nD) : W13 m ρ c (Proc.devRef .tc main_arg8) = m ((c : Thread nD τ).loc main_arg8) :=
  ((W13_of_ne m ρ c main_arg8 (by decide)).trans (keep_12_10 m ρ c main_arg8 (by not_written hostOps5) (by not_written hostOps5_1))).trans (arg8_10 m ρ c)

theorem arg9_2 (c : Dev nD) : W2 m ρ c (Proc.devRef .tc main_arg9) = m ((c : Thread nD τ).loc main_arg9) := (W2_of_ne m ρ c main_arg9 (by decide)).trans (keep_1 m ρ c main_arg9 (by not_written hostOps0))
theorem arg9_6 (c : Dev nD) : W6 m ρ c (Proc.devRef .tc main_arg9) = m ((c : Thread nD τ).loc main_arg9) := ((W6_of_ne m ρ c main_arg9 (by decide)).trans ((W5_of_ne m ρ c main_arg9 (by decide)).trans (keep_4_2 m ρ c main_arg9 (by not_written hostOps1) (by not_written hostOps1_1)))).trans (arg9_2 m ρ c)
theorem arg9_10 (c : Dev nD) : W10 m ρ c (Proc.devRef .tc main_arg9) = m ((c : Thread nD τ).loc main_arg9) := ((W10_of_ne m ρ c main_arg9 (by decide)).trans ((W9_of_ne m ρ c main_arg9 (by decide)).trans (keep_8_6 m ρ c main_arg9 (by not_written hostOps3) (by not_written hostOps3_1)))).trans (arg9_6 m ρ c)
theorem arg9_14 (c : Dev nD) : W14 m ρ c (Proc.devRef .tc main_arg9) = m ((c : Thread nD τ).loc main_arg9) := ((W14_of_ne m ρ c main_arg9 (by decide)).trans ((W13_of_ne m ρ c main_arg9 (by decide)).trans (keep_12_10 m ρ c main_arg9 (by not_written hostOps5) (by not_written hostOps5_1)))).trans (arg9_10 m ρ c)

theorem prod_14 (c : Dev nD) (hs : ∀ i, 0 ≤ (srcIds (m ((c : Thread nD τ).loc main_arg1)) i).toInt ∧ (srcIds (m ((c : Thread nD τ).loc main_arg1)) i).toInt < 100000) :
    W14 m ρ c (Proc.devRef .tc main_v57) = Host.dotGeneral (F := Ideal) (φ₁ := .f32) (φ₂ := .f32) Cert.ReferenceIdeal.dot_S100000x128_S128x64_S100000x64_1_0_0_1_n_n none (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg8)) := by
  refine (W14_arr m ρ c 2).trans ((mm6 (V13 m ρ) c).trans ?_)
  rw [← dot64_spec]
  exact congrArg₂ (fun x w => Host.dotGeneral (F := Ideal) (φ₁ := .f32) (φ₂ := .f32) (DotDims.plain 100000 128 64) none x w) (hidden_13 m ρ c hs) (arg8_13 m ρ c)

theorem agg_16 (c : Dev nD) (hs : ∀ i, 0 ≤ (srcIds (m ((c : Thread nD τ).loc main_arg1)) i).toInt ∧ (srcIds (m ((c : Thread nD τ).loc main_arg1)) i).toInt < 100000) :
    W16 m ρ c (Proc.devRef .tc main_v64) = Cert.Spec.agg64 (F := Ideal) (m ((c : Thread nD τ).loc main_arg1)) (Host.dotGeneral (F := Ideal) (φ₁ := .f32) (φ₂ := .f32) Cert.ReferenceIdeal.dot_S100000x128_S128x64_S100000x64_1_0_0_1_n_n none (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg8))) := by
  have h := s7_agg (W14 m ρ c)
  rw [dst_14 m ρ c, src_14 m ρ c, norm_14 m ρ c, prod_14 m ρ c hs, take64 _ _ hs] at h
  exact h.trans (agg64_spec _ _)

theorem bias_16 (c : Dev nD) :
    W16 m ρ c (Proc.devRef .tc main_v65) = broadcastInDim Cert.ReferenceIdeal.S1x64 ![1] Cert.ReferenceIdeal.Facts₀.bcast_S64_S1x64_1 (m ((c : Thread nD τ).loc main_arg9)) := by
  have h := s7_bias (W14 m ρ c)
  rw [arg9_14 m ρ c] at h
  exact h.trans (reshape_row64 _ _)

/-- The second result. -/
theorem out1_17 (c : Dev nD) (hs : ∀ i, 0 ≤ (srcIds (m ((c : Thread nD τ).loc main_arg1)) i).toInt ∧ (srcIds (m ((c : Thread nD τ).loc main_arg1)) i).toInt < 100000) :
    W17 m ρ c (Proc.devRef .tc main_v66) = Cert.Spec.head (F := Ideal) (m ((c : Thread nD τ).loc main_arg1)) (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg8)) (m ((c : Thread nD τ).loc main_arg9)) := by
  have h : (dat7 (F := Ideal) (V16 m ρ) c).arrAt 2 cfg7.N
      = addf (F := Ideal) (s := Cert.ReferenceIdeal.S100000x64) (φ := .f32) (W16 m ρ c (Proc.devRef .tc main_v64)) (broadcastInDim Cert.ReferenceIdeal.S100000x64 ![0, 1] Cert.ReferenceIdeal.Facts₀.bcast_S1x64_S100000x64_0_1 (W16 m ρ c (Proc.devRef .tc main_v65))) :=
    ba7 (V16 m ρ) c Cert.ReferenceIdeal.Facts₀.bcast_S1x64_S100000x64_0_1
  rw [agg_16 m ρ c hs, bias_16 m ρ c] at h
  exact (W17_arr m ρ c 2).trans h

end Cert.KernelIdeal.Gen

end
-- ==== Proof.lean ====
/-
  The kernel (four row-blocked matrix products and four row-blocked bias additions on the TensorCore, the graph
  propagation between them on the host) against the reference encoder: two hidden layers and two output heads of a graph
  convolution with self-loops and symmetric normalisation, `h ↦ D^(-1/2) (A + I) D^(-1/2) (h W) + b`.

  Over the extended reals the two programs compute the same function of their arguments wherever every source node id is a
  node (the claim's precondition says so of the edge list; the self-loop ids are nodes by construction):
  * a region's row blocks tile its result, and the block product into a zero accumulator is the same sum over the 128
    contracted entries as the reference's whole product; a change of float format is the identity;
  * the bias regions add the same row to every row and, in the hidden layers, take the same maximum with zero;
  * the kernel takes rows under a range guard that the reference does not have; with every source id in range the guard
    holds on every row and the guarded take is the reference's plain gather;
  * everything else — ids, degrees, edge weights, the scaling of the taken rows and their sum into the destination rows —
    is the same chain of host operations in both programs, carried as one function and never opened.
  No law of arithmetic on the extended reals is needed beyond reading both matrix products as the same finite sum, so the
  finiteness of the float inputs is not used; the range of the source ids is.
  The idealization rewrote nothing in the kernel, so `preserves` is trivially true.
-/
import proofs.«409801_j72988674228409_1_alg».proof.Defs
import proofs.«409801_j72988674228409_1_alg».proof.Proof.Gen.Kernel
import proofs.«409801_j72988674228409_1_alg».proof.Proof.Gen.Kernel.Frame
import proofs.«409801_j72988674228409_1_alg».proof.Proof.Gen.KernelIdeal
import proofs.«409801_j72988674228409_1_alg».proof.Proof.Gen.KernelIdeal.Frame
import proofs.«409801_j72988674228409_1_alg».proof.Proof.Gen.ReferenceIdeal
import proofs.«409801_j72988674228409_1_alg».proof.Proof.Gen.ReferenceIdeal.Run
import proofs.«409801_j72988674228409_1_alg».proof.Proof.Gen.Pre_finite_inputs
import proofs.«409801_j72988674228409_1_alg».proof.Proof.KRun
import proofs.«409801_j72988674228409_1_alg».proof.Proof.Chase
import proofs.«409801_j72988674228409_1_alg».proof.Proof.Spec
import proofs.«409801_j72988674228409_1_alg».proof.Proof.TakeFill
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs, faults nowhere and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Under the precondition every source id of the kernel program's edge list is a node. -/
theorem src_in_range (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    ∀ i, 0 ≤ (Cert.KernelIdeal.Take.srcIds (m ((c.tc : Thread Cert.KernelIdeal.nD Cert.KernelIdeal.τ).loc Cert.KernelIdeal.main_arg1)) i).toInt ∧ (Cert.KernelIdeal.Take.srcIds (m ((c.tc : Thread Cert.KernelIdeal.nD Cert.KernelIdeal.τ).loc Cert.KernelIdeal.main_arg1)) i).toInt < 100000 :=
  Cert.KernelIdeal.Take.srcIds_inRange _ _ _ _ _ _ _ _ _ _ (hpre c)

/-- Both programs end with the two heads over the twice-propagated features, as functions of the same arguments. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.Spec.head (F := Ideal) (m ((c.tc : Thread Cert.KernelIdeal.nD Cert.KernelIdeal.τ).loc Cert.KernelIdeal.main_arg1)) (Cert.Spec.hidden (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.head (F := Ideal) (m ((c.tc : Thread Cert.KernelIdeal.nD Cert.KernelIdeal.τ).loc Cert.KernelIdeal.main_arg1)) (Cert.Spec.hidden (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Gen.out0_17 m ρ c (src_in_range m hpre c)),
        (h c).2.1.trans (Cert.KernelIdeal.Gen.out1_17 m ρ c (src_in_range m hpre c)), (h c).2.2⟩)
      (Cert.KernelIdeal.Gen.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.RefSpec.out0_eq, (hagree c).1, (hagree c).2.1, (hagree c).2.2.1, (hagree c).2.2.2.1, (hagree c).2.2.2.2.1,
        (hagree c).2.2.2.2.2.1, (hagree c).2.2.2.2.2.2.1, (hagree c).2.2.2.2.2.2.2.1]
    · rw [Cert.ReferenceIdeal.RefSpec.out1_eq, (hagree c).1, (hagree c).2.1, (hagree c).2.2.1, (hagree c).2.2.2.1, (hagree c).2.2.2.2.1,
        (hagree c).2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
